-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000x1 : Shape := ⟨2, ![1600000, 1]⟩
abbrev S1600000 : Shape := ⟨1, ![1600000]⟩
abbrev S128x256 : Shape := ⟨2, ![128, 256]⟩
abbrev S128 : Shape := ⟨1, ![128]⟩
abbrev S64x256 : Shape := ⟨2, ![64, 256]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg6 : FVec F S128x256 .f32) (main_arg7 : FVec F S128 .f32) (main_arg8 : FVec F S64x256 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg6
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x256 .f32 := Host.absf main_arg8
  let main_cst_10 : FVec F S_ .f32 := constant S_ .f32 0x7F800000#32
  let main_v30 : FVec F S64x256 .f32 := broadcastInDim S64x256 ![] bcast_S_S64x256 main_cst_10
  let main_v31 : IVec S64x256 1 := cmpf .olt main_v29 main_v30
  let main_c_11 : IVec S_ 1 := constantI S_ 1 1#1
  let main_v32 : IVec S_ 1 := (fun x v => Host.reduce IntOp.andi x v reducesTo_S64x256_S_d0_1 h_S_) main_v31 main_c_11
  let main_v33 : IVec S_ 1 := andi main_v28 main_v32
  fn_part2 (F := F) main_arg9 main_v33

def fn {F : FTy → Type} [FloatOps F] (main_arg0 : FVec F S50000x128 .f32) (main_arg1 : FVec F S1600000x1 .f32) (main_arg2 : IVec S1600000 32) (main_arg3 : IVec S1600000 32) (main_arg4 : FVec F S128x256 .f32) (main_arg5 : FVec F S128 .f32) (main_arg6 : FVec F S128x256 .f32) (main_arg7 : FVec F S128 .f32) (main_arg8 : FVec F S64x256 .f32) (main_arg9 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000x1 .f32 := Host.absf main_arg1
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S50000x128 : Shape := ⟨2, ![50000, 128]⟩
abbrev S1600000x1 : Shape := ⟨2, ![1600000, 1]⟩
abbrev S1600000 : Shape := ⟨1, ![1600000]⟩
abbrev S128x256 : Shape := ⟨2, ![128, 256]⟩
abbrev S128 : Shape := ⟨1, ![128]⟩
abbrev S64x256 : Shape := ⟨2, ![64, 256]⟩
abbrev S64 : Shape := ⟨1, ![64]⟩
abbrev S_ : Shape := ⟨0, ![]⟩
abbrev S50000 : Shape := ⟨1, ![50000]⟩
abbrev S50000x1 : Shape := ⟨2, ![50000, 1]⟩
abbrev S1600000x128 : Shape := ⟨2, ![1600000, 128]⟩
abbrev S128x128 : Shape := ⟨2, ![128, 128]⟩
abbrev S1x128 : Shape := ⟨2, ![1, 128]⟩
abbrev S5000x128 : Shape := ⟨2, ![5000, 128]⟩
abbrev S64x128 : Shape := ⟨2, ![64, 128]⟩
abbrev S128x64 : Shape := ⟨2, ![128, 64]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 99
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S1600000x1, .f32⟩
  | .hbm, ⟨2, _⟩ => ⟨S1600000, .i32⟩
  | .hbm, ⟨3, _⟩ => ⟨S1600000, .i32⟩
  | .hbm, ⟨4, _⟩ => ⟨S128x256, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S64x256, .f32⟩
  | .hbm, ⟨9, _⟩ => ⟨S64, .f32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S50000, .f32⟩
  | .hbm, ⟨14, _⟩ => ⟨S1600000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .i1⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S1600000x128, .f32⟩
  | .hbm, ⟨40, _⟩ => ⟨S1600000x128, .f32⟩
  | .hbm, ⟨41, _⟩ => ⟨S_, .f32⟩
  | .hbm, ⟨42, _⟩ => ⟨S50000x128, .f32⟩
  | .hbm, ⟨43, _⟩ => ⟨S1600000x1, .i32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S128x128, .f32⟩
  | .hbm, ⟨48, _⟩ => ⟨S128x128, .f32⟩
  | .hbm, ⟨49, _⟩ => ⟨S128x128, .f32⟩
  | .hbm, ⟨50, _⟩ => ⟨S128x128, .f32⟩
  | .hbm, ⟨51, _⟩ => ⟨S1x128, .f32⟩
  | .hbm, ⟨52, _⟩ => ⟨S50000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S1600000x128, .f32⟩
  | .hbm, ⟨63, _⟩ => ⟨S1600000x128, .f32⟩
  | .hbm, ⟨64, _⟩ => ⟨S_, .f32⟩
  | .hbm, ⟨65, _⟩ => ⟨S50000x128, .f32⟩
  | .hbm, ⟨66, _⟩ => ⟨S1600000x1, .i32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S128x128, .f32⟩
  | .hbm, ⟨71, _⟩ => ⟨S128x128, .f32⟩
  | .hbm, ⟨72, _⟩ => ⟨S128x128, .f32⟩
  | .hbm, ⟨73, _⟩ => ⟨S128x128, .f32⟩
  | .hbm, ⟨74, _⟩ => ⟨S1x128, .f32⟩
  | .hbm, ⟨75, _⟩ => ⟨S50000x128, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x128, .f32⟩
  | .hbm, ⟨85, _⟩ => ⟨S1600000x128, .f32⟩
  | .hbm, ⟨86, _⟩ => ⟨S1600000x128, .f32⟩
  | .hbm, ⟨87, _⟩ => ⟨S_, .f32⟩
  | .hbm, ⟨88, _⟩ => ⟨S50000x128, .f32⟩
  | .hbm, ⟨89, _⟩ => ⟨S1600000x1, .i32⟩
  | .hbm, ⟨90, _⟩ => ⟨S50000x128, .f32⟩
  | .hbm, ⟨91, _⟩ => ⟨S50000x128, .f32⟩
  | .hbm, ⟨92, _⟩ => ⟨S50000x128, .f32⟩
  | .hbm, ⟨93, _⟩ => ⟨S64x128, .f32⟩
  | .hbm, ⟨94, _⟩ => ⟨S128x64, .f32⟩
  | .hbm, ⟨95, _⟩ => ⟨S64x128, .f32⟩
  | .hbm, ⟨96, _⟩ => ⟨S128x64, .f32⟩
  | .hbm, ⟨97, _⟩ => ⟨S1x64, .f32⟩
  | .hbm, ⟨98, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S128x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_v9 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_5 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_6 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_9 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S128x256_S128x128_0_0 : S128x256.Slices ![0, 0] S128x128
  transposes_S128x128_S128x128_1_0 : S128x128.Transposes [1, 0] S128x128
  slices_S128x256_S128x128_0_128 : S128x256.Slices ![0, 128] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S64x256_S64x128_0_0 : S64x256.Slices ![0, 0] S64x128
  transposes_S64x128_S128x64_1_0 : S64x128.Transposes [1, 0] S128x64
  slices_S64x256_S64x128_0_128 : S64x256.Slices ![0, 128] S64x128
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v25) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v65) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v67) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v69) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v70) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v71) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S1600000x1 : Shape := ⟨2, ![1600000, 1]⟩
abbrev S1600000 : Shape := ⟨1, ![1600000]⟩
abbrev S128x256 : Shape := ⟨2, ![128, 256]⟩
abbrev S128 : Shape := ⟨1, ![128]⟩
abbrev S64x256 : Shape := ⟨2, ![64, 256]⟩
abbrev S64 : Shape := ⟨1, ![64]⟩
abbrev S_ : Shape := ⟨0, ![]⟩
abbrev S50000 : Shape := ⟨1, ![50000]⟩
abbrev S50000x1 : Shape := ⟨2, ![50000, 1]⟩
abbrev S1600000x128 : Shape := ⟨2, ![1600000, 128]⟩
abbrev S50000x256 : Shape := ⟨2, ![50000, 256]⟩
abbrev S256x128 : Shape := ⟨2, ![256, 128]⟩
abbrev S1x128 : Shape := ⟨2, ![1, 128]⟩
abbrev S256x64 : Shape := ⟨2, ![256, 64]⟩
abbrev S50000x64 : Shape := ⟨2, ![50000, 64]⟩
abbrev S1x64 : Shape := ⟨2, ![1, 64]⟩

abbrev nBuf : Space → Nat
  | .hbm => 108
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1600000x1, .f32⟩
  | .hbm, ⟨2, _⟩ => ⟨S1600000, .i32⟩
  | .hbm, ⟨3, _⟩ => ⟨S1600000, .i32⟩
  | .hbm, ⟨4, _⟩ => ⟨S128x256, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S64x256, .f32⟩
  | .hbm, ⟨9, _⟩ => ⟨S64, .f32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S50000, .f32⟩
  | .hbm, ⟨14, _⟩ => ⟨S1600000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .i1⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S1600000x128, .f32⟩
  | .hbm, ⟨40, _⟩ => ⟨S1600000x128, .f32⟩
  | .hbm, ⟨41, _⟩ => ⟨S_, .f32⟩
  | .hbm, ⟨42, _⟩ => ⟨S50000x128, .f32⟩
  | .hbm, ⟨43, _⟩ => ⟨S1600000x1, .i32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S50000x256, .f32⟩
  | .hbm, ⟨48, _⟩ => ⟨S256x128, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S50000x128, .f32⟩
  | .hbm, ⟨55, _⟩ => ⟨S50000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S1600000x128, .f32⟩
  | .hbm, ⟨66, _⟩ => ⟨S1600000x128, .f32⟩
  | .hbm, ⟨67, _⟩ => ⟨S_, .f32⟩
  | .hbm, ⟨68, _⟩ => ⟨S50000x128, .f32⟩
  | .hbm, ⟨69, _⟩ => ⟨S1600000x1, .i32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S50000x256, .f32⟩
  | .hbm, ⟨74, _⟩ => ⟨S256x128, .f32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S_, .f32⟩
  | .hbm, ⟨80, _⟩ => ⟨S50000x128, .f32⟩
  | .hbm, ⟨81, _⟩ => ⟨S50000x128, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x128, .f32⟩
  | .hbm, ⟨91, _⟩ => ⟨S1600000x128, .f32⟩
  | .hbm, ⟨92, _⟩ => ⟨S1600000x128, .f32⟩
  | .hbm, ⟨93, _⟩ => ⟨S_, .f32⟩
  | .hbm, ⟨94, _⟩ => ⟨S50000x128, .f32⟩
  | .hbm, ⟨95, _⟩ => ⟨S1600000x1, .i32⟩
  | .hbm, ⟨96, _⟩ => ⟨S50000x128, .f32⟩
  | .hbm, ⟨97, _⟩ => ⟨S50000x128, .f32⟩
  | .hbm, ⟨98, _⟩ => ⟨S50000x128, .f32⟩
  | .hbm, ⟨99, _⟩ => ⟨S50000x256, .f32⟩
  | .hbm, ⟨100, _⟩ => ⟨S256x64, .f32⟩
  | .hbm, ⟨101, _⟩ => ⟨S50000x64, .f32⟩
  | .hbm, ⟨102, _⟩ => ⟨S1x64, .f32⟩
  | .hbm, ⟨103, _⟩ => ⟨S50000x64, .f32⟩
  | .hbm, ⟨104, _⟩ => ⟨S50000x64, .f32⟩
  | .hbm, ⟨105, _⟩ => ⟨S_, .f32⟩
  | .hbm, ⟨106, _⟩ => ⟨S50000x64, .f32⟩
  | .hbm, ⟨107, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_v9 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_5 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_6 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_call1_cst : Ref sig .tc := ⟨.hbm, 53, rfl⟩
abbrev main_call1_v0 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call2_cst : Ref sig .tc := ⟨.hbm, 79, rfl⟩
abbrev main_call2_v0 : Ref sig .tc := ⟨.hbm, 80, rfl⟩
abbrev main_v53 : Ref sig .tc := ⟨.hbm, 81, rfl⟩
abbrev main_c_10 : Ref sig .tc := ⟨.hbm, 82, rfl⟩
abbrev main_v54 : Ref sig .tc := ⟨.hbm, 83, rfl⟩
abbrev main_v55 : Ref sig .tc := ⟨.hbm, 84, rfl⟩
abbrev main_c_11 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_12 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_call3_cst : Ref sig .tc := ⟨.hbm, 105, rfl⟩
abbrev main_call3_v0 : Ref sig .tc := ⟨.hbm, 106, rfl⟩
abbrev main_v74 : Ref sig .tc := ⟨.hbm, 107, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x256_S256x64_1_0 : S64x256.Transposes [1, 0] S256x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x256_S256x128_S50000x128_1_0_0_1_n_n_wf : DotDims.WF S50000x256 S256x128 S50000x128 [1] [0] [0] [1] [] []
  dot_S50000x256_S256x64_S50000x64_1_0_0_1_n_n_wf : DotDims.WF S50000x256 S256x64 S50000x64 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.Spec.lean ====
/-
  One dense layer of the graph network, as a function on extended reals, in two spellings.

  A layer takes the aggregated neighbour features `a` and the node's own features `h` (both 50000 × 128), a weight
  matrix `W` (N × 256) and a bias `b` (N), and returns, at node `n` and output column `j`,
      max (Σ_{k<128} a[n,k]·W[j,k] + Σ_{k<128} h[n,k]·W[j,128+k] + b[j], 0).
  `layer` reads `W` and `b` as given. `dense` is the same number spelt with the two halves of `W` already transposed
  (128 × N each) and the bias as a 1 × N row. The sum over all 256 columns of the concatenation [a | h] against a row
  of `W` splits into the sum over the first 128 columns plus the sum over the last 128 (`sum_lo_hi`): addition on the
  extended reals is commutative and associative, which is all a finite sum's splitting needs.
-/
import Idealize.ShloMosaic.Lib.ValueIdx
import Idealize.ShloMosaic.PureOps.Ideal.Laws

noncomputable section

namespace Cert.Spec

open Idealize.ShloMosaic Idealize.ShloMosaic.ValueIdx

/-- Column `k` of the first half of the 256 columns. -/
abbrev lo (k : Fin 128) : Fin 256 := ⟨k.val, by omega⟩
/-- Column `128 + k`: column `k` of the second half. -/
abbrev hi (k : Fin 128) : Fin 256 := ⟨128 + k.val, by omega⟩

/-- A sum over 256 columns is the sum over the first 128 plus the sum over the last 128. -/
theorem sum_lo_hi (f : Fin 256 → EReal) : ∑ k : Fin 256, f k = (∑ k : Fin 128, f (lo k)) + ∑ k : Fin 128, f (hi k) :=
  Fin.sum_univ_add (a := 128) (b := 128) f

/-- The layer at node `p`, output column `q`, with `W` and `b` as given. -/
def layerAt {N : Nat} (a h : (⟨2, ![50000, 128]⟩ : Shape).Idx → EReal) (W : (⟨2, ![N, 256]⟩ : Shape).Idx → EReal)
    (b : (⟨1, ![N]⟩ : Shape).Idx → EReal) (p : Fin 50000) (q : Fin N) : EReal :=
  max (((∑ k : Fin 128, a (ix2 p k) * W (ix2 q (lo k))) + (∑ k : Fin 128, h (ix2 p k) * W (ix2 q (hi k)))) + b (ix1 q))
    (Ideal.ofBits .f32 0x00000000#32)

/-- The layer as a whole array. -/
def layer {N : Nat} (a h : (⟨2, ![50000, 128]⟩ : Shape).Idx → EReal) (W : (⟨2, ![N, 256]⟩ : Shape).Idx → EReal)
    (b : (⟨1, ![N]⟩ : Shape).Idx → EReal) : (⟨2, ![50000, N]⟩ : Shape).Idx → EReal :=
  fun i => layerAt a h W b ⟨(i 0).val, idx2_lt0 i⟩ ⟨(i 1).val, idx2_lt1 i⟩

theorem layer_ix2 {N : Nat} (a h : (⟨2, ![50000, 128]⟩ : Shape).Idx → EReal) (W : (⟨2, ![N, 256]⟩ : Shape).Idx → EReal)
    (b : (⟨1, ![N]⟩ : Shape).Idx → EReal) (p : Fin 50000) (q : Fin N) : layer a h W b (ix2 p q) = layerAt a h W b p q := rfl

/-- The same number with the halves of `W` transposed (`Wa[k,j] = W[j,k]`, `Wh[k,j] = W[j,128+k]`) and the bias a row. -/
def denseAt {N : Nat} (a h : (⟨2, ![50000, 128]⟩ : Shape).Idx → EReal) (Wa Wh : (⟨2, ![128, N]⟩ : Shape).Idx → EReal)
    (b : (⟨2, ![1, N]⟩ : Shape).Idx → EReal) (p : Fin 50000) (q : Fin N) : EReal :=
  max (((∑ k : Fin 128, a (ix2 p k) * Wa (ix2 k q)) + (∑ k : Fin 128, h (ix2 p k) * Wh (ix2 k q))) + b (ix2 (0 : Fin 1) q))
    (Ideal.ofBits .f32 0x00000000#32)

/-- That spelling as a whole array. -/
def dense {N : Nat} (a h : (⟨2, ![50000, 128]⟩ : Shape).Idx → EReal) (Wa Wh : (⟨2, ![128, N]⟩ : Shape).Idx → EReal)
    (b : (⟨2, ![1, N]⟩ : Shape).Idx → EReal) : (⟨2, ![50000, N]⟩ : Shape).Idx → EReal :=
  fun i => denseAt a h Wa Wh b ⟨(i 0).val, idx2_lt0 i⟩ ⟨(i 1).val, idx2_lt1 i⟩

theorem dense_ix2 {N : Nat} (a h : (⟨2, ![50000, 128]⟩ : Shape).Idx → EReal) (Wa Wh : (⟨2, ![128, N]⟩ : Shape).Idx → EReal)
    (b : (⟨2, ![1, N]⟩ : Shape).Idx → EReal) (p : Fin 50000) (q : Fin N) : dense a h Wa Wh b (ix2 p q) = denseAt a h Wa Wh b p q := rfl

end Cert.Spec

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.KReg0.lean ====
/-
  Region 0 (the dense layer's pallas_call number 1): what its output array holds after the run, as one function of the
  arrays the region finds when it is entered.

  The grid has 10 points; point t stages rows 5000·t … 5000·t + 4999 of the aggregation and of the features (both
  50000 × 128), the whole two weight operands (128 × 128 each) and the whole bias row (1 × 128), and writes back rows
  5000·t … 5000·t + 4999 of the 50000 × 128 output. The body stores max(A·Wa + H·Wh + b, 0) of its blocks, two matrix
  products into zero accumulators, which at the ideal instance are plain sums over the 128 contracted columns (the
  casts to bf16 are the identity there). Row r of block t is row 5000·t + r of the array, so each write-back is the
  corresponding block of `Cert.Spec.dense` of the entry arrays, and the ten blocks tile the output.
-/
import proofs.«169384_j87686052315764_1_alg».proof.Proof.Gen.KernelIdeal.Frame
import proofs.«169384_j87686052315764_1_alg».proof.Proof.Spec
import proofs.«169384_j87686052315764_1_alg».proof.Proof.LibDot2
import Idealize.ShloMosaic.Lib.Pipeline.Value

set_option maxRecDepth 16384

noncomputable section

namespace Cert.KernelIdeal.KReg0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! ## The body's arithmetic at an entry -/

/-- The offsets of a whole-block access are zero on both axes, however the zeros are spelt. -/
theorem zero_offsets : (![0, 0] : Fin 2 → Nat) = fun _ => 0 := funext fun a => by fin_cases a <;> rfl

/-- The product's dimension numbers: the left operand is read at the output's row … -/
theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and at the contracted column; -/
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand is read at the contracted row … -/
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and at the output's column. -/
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- One of the body's two matrix products, into the zero accumulator, at row `p` and column `j`: the sum over the
    128 contracted columns. -/
theorem product_ix2 {φ₁ φ₂ : FTy} (l : FVec Ideal S5000x128 φ₁) (r : FVec Ideal S128x128 φ₂) (p : Fin 5000) (j : Fin 128) :
    matmul dot_S5000x128_S128x128_S5000x128_1_0_0_1_n_n none l r (constant (F := Ideal) S5000x128 .f32 0x00000000#32) (ix2 p j)
      = ∑ a : Fin 128, l (ix2 p a) * r (ix2 a j) :=
  Cert.Lib.Dot2.matmul_zero_ix2 (M := 5000) (K := 128) (N := 128) dot_S5000x128_S128x128_S5000x128_1_0_0_1_n_n none rfl rfl
    lhs_axis0 lhs_axis1 rhs_axis0 rhs_axis1 l r p j

/-- The bias row broadcast down the 5000 rows, at row `p` and column `j`, is the row's entry in column `j`. -/
theorem bias_ix2 (x : FVec Ideal S1x128 .f32) (p : Fin 5000) (j : Fin 128) :
    broadcastTo S5000x128 x broadcasts_S1x128_S5000x128 (ix2 p j) = x (ix2 (0 : Fin 1) j) :=
  broadcastTo_apply x broadcasts_S1x128_S5000x128 (ix2 p j) (ix2 (0 : Fin 1) j) (fun a => by
    match a with
    | ⟨0, _⟩ => rfl
    | ⟨1, _⟩ => rfl)

/-- The value the body stores, at row `r` and column `q` of its block: the two products' sums, plus the bias,
    clamped below at zero. The casts to bf16 and the same-shape reshapes change nothing at the ideal instance. -/
theorem payload_ix2 (x0 x1 : Vec Ideal S5000x128 .f32) (x2 x3 : Vec Ideal S128x128 .f32) (x4 : Vec Ideal S1x128 .f32)
    (r : Fin 5000) (q : Fin 128) :
    k0_pay1 (F := Ideal) x0 x1 x2 x3 x4 (ix2 r q)
      = max (((∑ a : Fin 128, x0 (ix2 r a) * x2 (ix2 a q)) + (∑ a : Fin 128, x1 (ix2 r a) * x3 (ix2 a q)))
          + x4 (ix2 (0 : Fin 1) q)) (Ideal.ofBits .f32 0x00000000#32) := by
  unfold k0_pay1
  simp only [shapeCast_self]
  rw [maximumf_apply, addf_apply, addf_apply, product_ix2, product_ix2, bias_ix2]
  rfl

/-- The body's stored value at row `r`, column `q` of its block, when the first two blocks are rows
    `5000·n + r` of two 50000 × 128 arrays and the other three are whole arrays: the layer of those five arrays at
    row `5000·n + r`, column `q`. -/
theorem payload_of_rows (A H : S50000x128.Idx → EReal) (Wa Wh : S128x128.Idx → EReal) (b : S1x128.Idx → EReal)
    (x0 x1 : Vec Ideal S5000x128 .f32) (x2 x3 : Vec Ideal S128x128 .f32) (x4 : Vec Ideal S1x128 .f32)
    (n : Nat) (hn : n < 10)
    (h0 : ∀ (r : Fin 5000) (a : Fin 128), x0 (ix2 r a) = A (ix2 (⟨5000 * n + r.val, by omega⟩ : Fin 50000) a))
    (h1 : ∀ (r : Fin 5000) (a : Fin 128), x1 (ix2 r a) = H (ix2 (⟨5000 * n + r.val, by omega⟩ : Fin 50000) a))
    (h2 : x2 = Wa) (h3 : x3 = Wh) (h4 : x4 = b) (r : Fin 5000) (q : Fin 128) :
    k0_pay1 (F := Ideal) x0 x1 x2 x3 x4 (ix2 r q)
      = Cert.Spec.dense (N := 128) A H Wa Wh b (ix2 (⟨5000 * n + r.val, by omega⟩ : Fin 50000) q) := by
  rw [payload_ix2, Cert.Spec.dense_ix2]
  unfold Cert.Spec.denseAt
  subst h2 h3 h4
  simp only [h0, h1]

/-! ## Where each window's block sits -/

/-- The printed index maps over the ten grid points: the row windows (0, 1 and the output, 5) are at block
    `(t, 0)`, the two weight windows and the bias window at block `(0, 0)`. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A grid point's number is below ten. -/
theorem point_lt (t : Fin cfg0.N) : t.val < 10 :=
  Nat.lt_of_lt_of_eq t.isLt N_0

variable (V : (c : Dev nD) → (b : Ref sig .tc) → Buf (Elt Ideal) ((c : Thread nD τ).loc b))

/-- Row `r` of window 0's block at point `t` is row `5000·t + r` of the aggregation. -/
theorem block0_ix2 (c : Dev nD) (t : Fin cfg0.N) (r : Fin 5000) (a : Fin 128) :
    (iblk0 V c 0 t : Vec Ideal S5000x128 .f32) (ix2 r a)
      = (V c main_v25 : S50000x128.Idx → EReal) (ix2 (⟨5000 * t.val + r.val, by have := point_lt t; omega⟩ : Fin 50000) a) := by
  obtain ⟨e0, e1, -⟩ := block_indices t
  unfold iblk0
  show V c main_v25 (((cfg0.win 0).blk t).view.emb (ix2 r a)) = _
  refine congrArg (V c main_v25) (funext fun d => Fin.ext ?_)
  match d with
  | ⟨0, _⟩ => show win0_0.index t (0 : Fin 2) * 5000 + 1 * r.val = 5000 * t.val + r.val; rw [e0]; omega
  | ⟨1, _⟩ => show win0_0.index t (1 : Fin 2) * 128 + 1 * a.val = a.val; rw [e1]; omega

/-- Row `r` of window 1's block at point `t` is row `5000·t + r` of the features. -/
theorem block1_ix2 (c : Dev nD) (t : Fin cfg0.N) (r : Fin 5000) (a : Fin 128) :
    (iblk0 V c 1 t : Vec Ideal S5000x128 .f32) (ix2 r a)
      = (V c main_arg0 : S50000x128.Idx → EReal) (ix2 (⟨5000 * t.val + r.val, by have := point_lt t; omega⟩ : Fin 50000) a) := by
  obtain ⟨-, -, e0, e1, -⟩ := block_indices t
  unfold iblk0
  show V c main_arg0 (((cfg0.win 1).blk t).view.emb (ix2 r a)) = _
  refine congrArg (V c main_arg0) (funext fun d => Fin.ext ?_)
  match d with
  | ⟨0, _⟩ => show win0_1.index t (0 : Fin 2) * 5000 + 1 * r.val = 5000 * t.val + r.val; rw [e0]; omega
  | ⟨1, _⟩ => show win0_1.index t (1 : Fin 2) * 128 + 1 * a.val = a.val; rw [e1]; omega

/-- Window 2's block at any point is the whole first weight operand. -/
theorem block2_eq (c : Dev nD) (t : Fin cfg0.N) :
    (iblk0 V c 2 t : Vec Ideal S128x128 .f32) = (V c main_v27 : S128x128.Idx → EReal) := by
  obtain ⟨-, -, -, -, e0, e1, -⟩ := block_indices t
  unfold iblk0
  funext y
  show V c main_v27 (((cfg0.win 2).blk t).view.emb y) = V c main_v27 y
  refine congrArg (V c main_v27) (funext fun d => Fin.ext ?_)
  match d with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- Window 3's block at any point is the whole second weight operand. -/
theorem block3_eq (c : Dev nD) (t : Fin cfg0.N) :
    (iblk0 V c 3 t : Vec Ideal S128x128 .f32) = (V c main_v29 : S128x128.Idx → EReal) := by
  obtain ⟨-, -, -, -, -, -, e0, e1, -⟩ := block_indices t
  unfold iblk0
  funext y
  show V c main_v29 (((cfg0.win 3).blk t).view.emb y) = V c main_v29 y
  refine congrArg (V c main_v29) (funext fun d => Fin.ext ?_)
  match d with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- Window 4's block at any point is the whole bias row. -/
theorem block4_eq (c : Dev nD) (t : Fin cfg0.N) :
    (iblk0 V c 4 t : Vec Ideal S1x128 .f32) = (V c main_v30 : S1x128.Idx → EReal) := by
  obtain ⟨-, -, -, -, -, -, -, -, e0, e1, -⟩ := block_indices t
  unfold iblk0
  funext y
  show V c main_v30 (((cfg0.win 4).blk t).view.emb y) = V c main_v30 y
  refine congrArg (V c main_v30) (funext fun d => Fin.ext ?_)
  match d with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-! ## From the ten write-backs to the array -/

/-- What point `t` writes back is block `t` of the layer of the entry arrays. -/
theorem flushed_eq (c : Dev nD) (t : Fin cfg0.N) :
    (dat0 (F := Ideal) V c).flushed 5 t
      = ((cfg0.win 5).blk t).view.read (Elt Ideal)
          (Cert.Spec.dense (N := 128) (V c main_v25) (V c main_arg0) (V c main_v27) (V c main_v29) (V c main_v30)) := by
  show (cfg0.win 5).cut (grid0.coords t) ((dat0 V c).after 5 t) = _
  rw [after0_5]
  unfold out0_5
  rw [View.canon_unit_zero zero_offsets]
  simp only [View.ld_unit_zero (S := S5000x128) zero_offsets, View.ld_unit_zero (S := S128x128) zero_offsets,
    View.ld_unit_zero (S := S1x128) zero_offsets]
  funext j
  obtain ⟨r, q, rfl⟩ : ∃ (r : Fin 5000) (q : Fin 128), j = ix2 r q := ⟨j 0, j 1, eq_ix2 j⟩
  obtain ⟨-, -, -, -, -, -, -, -, -, -, e0, e1⟩ := block_indices t
  have ht := point_lt t
  show k0_pay1 (F := Ideal) (iblk0 V c 0 t) (iblk0 V c 1 t) (iblk0 V c 2 t) (iblk0 V c 3 t) (iblk0 V c 4 t) (ix2 r q)
    = Cert.Spec.dense (N := 128) (V c main_v25) (V c main_arg0) (V c main_v27) (V c main_v29) (V c main_v30)
        (((cfg0.win 5).blk t).view.emb (ix2 r q))
  have hemb : ((cfg0.win 5).blk t).view.emb (ix2 r q) = ix2 (⟨5000 * t.val + r.val, by omega⟩ : Fin 50000) q := by
    funext d; apply Fin.ext
    match d with
    | ⟨0, _⟩ => show win0_5.index t (0 : Fin 2) * 5000 + 1 * r.val = 5000 * t.val + r.val; rw [e0]; omega
    | ⟨1, _⟩ => show win0_5.index t (1 : Fin 2) * 128 + 1 * q.val = q.val; rw [e1]; omega
  rw [hemb]
  exact payload_of_rows (V c main_v25) (V c main_arg0) (V c main_v27) (V c main_v29) (V c main_v30)
    (iblk0 V c 0 t) (iblk0 V c 1 t) (iblk0 V c 2 t) (iblk0 V c 3 t) (iblk0 V c 4 t) t.val ht
    (fun r a => block0_ix2 V c t r a) (fun r a => block1_ix2 V c t r a) (block2_eq V c t) (block3_eq V c t) (block4_eq V c t) r q

/-- An index of the output array is in point `t`'s block iff each coordinate is in the block's range on its axis. -/
theorem mem_block (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v31).slice (win0_5.rect t)).set ↔ _
  rw [View.set_slice_whole, Rect.mem_set_unit]
  exact Iff.rfl

/-- Row `i` of the output lies in the block of point `i / 5000`: the ten blocks tile the array. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, -, -, -, -, -, -, e0, e1⟩ := block_indices t
  refine ⟨t, flush0_5 t, ?_⟩
  rw [mem_block]
  intro a
  match a with
  | ⟨0, _⟩ =>
    show win0_5.index t (0 : Fin 2) * 5000 ≤ (i 0).val ∧ (i 0).val < win0_5.index t (0 : Fin 2) * 5000 + 5000
    rw [e0]; omega
  | ⟨1, _⟩ =>
    show win0_5.index t (1 : Fin 2) * 128 ≤ (i 1).val ∧ (i 1).val < win0_5.index t (1 : Fin 2) * 128 + 128
    rw [e1]; omega

/-- The output array of region 0 after its ten write-backs. -/
theorem final0 (c : Dev nD) :
    (dat0 (F := Ideal) V c).arrAt 5 cfg0.N
      = Cert.Spec.dense (N := 128) (V c main_v25) (V c main_arg0) (V c main_v27) (V c main_v29) (V c main_v30) :=
  (dat0 (F := Ideal) V c).arrAt_eq_of_cover 5
    (Cert.Spec.dense (N := 128) (V c main_v25) (V c main_arg0) (V c main_v27) (V c main_v29) (V c main_v30))
    (fun t _ => flushed_eq V c t) covered

end Cert.KernelIdeal.KReg0

end
-- ==== Proof.KReg1.lean ====
/-
  Region 1 (the dense layer's pallas_call number 2): what its output array holds after the run, as one function of the
  arrays the region finds when it is entered.

  The grid has 10 points; point t stages rows 5000·t … 5000·t + 4999 of the aggregation and of the features (both
  50000 × 128), the whole two weight operands (128 × 128 each) and the whole bias row (1 × 128), and writes back rows
  5000·t … 5000·t + 4999 of the 50000 × 128 output. The body stores max(A·Wa + H·Wh + b, 0) of its blocks, two matrix
  products into zero accumulators, which at the ideal instance are plain sums over the 128 contracted columns (the
  casts to bf16 are the identity there). Row r of block t is row 5000·t + r of the array, so each write-back is the
  corresponding block of `Cert.Spec.dense` of the entry arrays, and the ten blocks tile the output.
-/
import proofs.«169384_j87686052315764_1_alg».proof.Proof.Gen.KernelIdeal.Frame
import proofs.«169384_j87686052315764_1_alg».proof.Proof.Spec
import proofs.«169384_j87686052315764_1_alg».proof.Proof.LibDot2
import Idealize.ShloMosaic.Lib.Pipeline.Value

set_option maxRecDepth 16384

noncomputable section

namespace Cert.KernelIdeal.KReg1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The zero offsets of a whole-block access, however they are spelt. -/
theorem zero2 : (![0, 0] : Fin 2 → Nat) = fun _ => 0 := funext fun a => by
  match a with
  | ⟨0, _⟩ => rfl
  | ⟨1, _⟩ => rfl

/-! ## The body's matrix products -/

/-- The left operand of the body's product is read at the output's row … -/
theorem dotL0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and at the contracted column; -/
theorem dotL1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contracted row … -/
theorem dotR0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and at the output's column. -/
theorem dotR1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- One product of the body, into the zero accumulator, at row `r` and column `q`: the sum over the 128 contracted
    columns. -/
theorem prod_ix2 (l : FVec Ideal S5000x128 .bf16) (w : FVec Ideal S128x128 .bf16) (r : Fin 5000) (q : Fin 128) :
    matmul dot_S5000x128_S128x128_S5000x128_1_0_0_1_n_n none l w (constant (F := Ideal) S5000x128 .f32 0x00000000#32) (ix2 r q)
      = ∑ a : Fin 128, l (ix2 r a) * w (ix2 a q) :=
  Cert.Lib.Dot2.matmul_zero_ix2 dot_S5000x128_S128x128_S5000x128_1_0_0_1_n_n none rfl rfl dotL0 dotL1 dotR0 dotR1 l w r q

/-! ## The body's arithmetic at an entry -/

/-- The bias row, repeated down the block's 5000 rows, read at row `r` and column `q`: its entry at column `q`. -/
theorem bias_ix2 (x4 : Vec Ideal S1x128 .f32) (r : Fin 5000) (q : Fin 128) :
    broadcastTo S5000x128 x4 broadcasts_S1x128_S5000x128 (ix2 r q) = x4 (ix2 (0 : Fin 1) q) :=
  broadcastTo_apply x4 broadcasts_S1x128_S5000x128 (ix2 r q) (ix2 (0 : Fin 1) q) (fun a => by
    match a with
    | ⟨0, _⟩ => show (0 : Nat) = if (1 : Nat) = 1 then 0 else r.val; rw [if_pos rfl]
    | ⟨1, _⟩ => show q.val = if (128 : Nat) = 1 then 0 else q.val; rw [if_neg (by decide)])

/-- What the body stores, at row `r` and column `q` of its block: the two products into zero accumulators are the sums
    over the 128 contracted columns (the casts to bf16 change nothing here), the bias row is read at column `q`, and
    the result is cut below at zero. -/
theorem pay_ix2 (x0 x1 : Vec Ideal S5000x128 .f32) (x2 x3 : Vec Ideal S128x128 .f32) (x4 : Vec Ideal S1x128 .f32)
    (r : Fin 5000) (q : Fin 128) :
    k1_pay1 x0 x1 x2 x3 x4 (ix2 r q)
      = max (((∑ a : Fin 128, x0 (ix2 r a) * x2 (ix2 a q)) + (∑ a : Fin 128, x1 (ix2 r a) * x3 (ix2 a q)))
          + x4 (ix2 (0 : Fin 1) q)) (Ideal.ofBits .f32 0x00000000#32) := by
  unfold k1_pay1
  simp only [shapeCast_self]
  rw [maximumf_apply, addf_apply, addf_apply, broadcast_apply, prod_ix2, prod_ix2, bias_ix2]
  rfl

/-! ## The grid's index maps -/

/-- The grid has ten points. -/
theorem point_lt (t : Fin cfg1.N) : t.val < 10 := Nat.lt_of_lt_of_eq t.isLt N_1

/-- The printed index maps, decided once over the ten points: the aggregation's, the features' and the output's block
    at point `t` is block `(t, 0)`; the two weight operands' and the bias row's is always block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## The staged blocks, entry by entry -/

/-- Row `r` of the aggregation's block at point `t` is row `5000·t + r` of the aggregation. -/
theorem agg_blk (c : Dev nD) (t : Fin cfg1.N) (r : Fin 5000) (a : Fin 128) :
    (iblk1 V c 0 t : Vec Ideal S5000x128 .f32) (ix2 r a)
      = (V c main_v45 : Vec Ideal S50000x128 .f32) (ix2 ⟨5000 * t.val + r.val, by have := point_lt t; omega⟩ a) := by
  unfold iblk1
  rw [View.read_apply]
  show (V c main_v45 : Vec Ideal S50000x128 .f32) (((cfg1.win 0).blk t).view.emb (ix2 r a)) = _
  refine congrArg (V c main_v45 : Vec Ideal S50000x128 .f32) (funext fun d => Fin.ext ?_)
  obtain ⟨e0, e1, -⟩ := idx_facts t
  match d with
  | ⟨0, _⟩ => show win1_0.index t (0 : Fin 2) * 5000 + 1 * r.val = 5000 * t.val + r.val; rw [e0]; omega
  | ⟨1, _⟩ => show win1_0.index t (1 : Fin 2) * 128 + 1 * a.val = a.val; rw [e1]; omega

/-- Row `r` of the features' block at point `t` is row `5000·t + r` of the features. -/
theorem feat_blk (c : Dev nD) (t : Fin cfg1.N) (r : Fin 5000) (a : Fin 128) :
    (iblk1 V c 1 t : Vec Ideal S5000x128 .f32) (ix2 r a)
      = (V c main_v31 : Vec Ideal S50000x128 .f32) (ix2 ⟨5000 * t.val + r.val, by have := point_lt t; omega⟩ a) := by
  unfold iblk1
  rw [View.read_apply]
  show (V c main_v31 : Vec Ideal S50000x128 .f32) (((cfg1.win 1).blk t).view.emb (ix2 r a)) = _
  refine congrArg (V c main_v31 : Vec Ideal S50000x128 .f32) (funext fun d => Fin.ext ?_)
  obtain ⟨-, -, e0, e1, -⟩ := idx_facts t
  match d with
  | ⟨0, _⟩ => show win1_1.index t (0 : Fin 2) * 5000 + 1 * r.val = 5000 * t.val + r.val; rw [e0]; omega
  | ⟨1, _⟩ => show win1_1.index t (1 : Fin 2) * 128 + 1 * a.val = a.val; rw [e1]; omega

/-- The first weight operand is staged whole at every point. -/
theorem wa_blk (c : Dev nD) (t : Fin cfg1.N) (a : Fin 128) (q : Fin 128) :
    (iblk1 V c 2 t : Vec Ideal S128x128 .f32) (ix2 a q) = (V c main_v47 : Vec Ideal S128x128 .f32) (ix2 a q) := by
  unfold iblk1
  rw [View.read_apply]
  show (V c main_v47 : Vec Ideal S128x128 .f32) (((cfg1.win 2).blk t).view.emb (ix2 a q)) = _
  refine congrArg (V c main_v47 : Vec Ideal S128x128 .f32) (funext fun d => Fin.ext ?_)
  obtain ⟨-, -, -, -, e0, e1, -⟩ := idx_facts t
  match d with
  | ⟨0, _⟩ => show win1_2.index t (0 : Fin 2) * 128 + 1 * a.val = a.val; rw [e0]; omega
  | ⟨1, _⟩ => show win1_2.index t (1 : Fin 2) * 128 + 1 * q.val = q.val; rw [e1]; omega

/-- So is the second. -/
theorem wh_blk (c : Dev nD) (t : Fin cfg1.N) (a : Fin 128) (q : Fin 128) :
    (iblk1 V c 3 t : Vec Ideal S128x128 .f32) (ix2 a q) = (V c main_v49 : Vec Ideal S128x128 .f32) (ix2 a q) := by
  unfold iblk1
  rw [View.read_apply]
  show (V c main_v49 : Vec Ideal S128x128 .f32) (((cfg1.win 3).blk t).view.emb (ix2 a q)) = _
  refine congrArg (V c main_v49 : Vec Ideal S128x128 .f32) (funext fun d => Fin.ext ?_)
  obtain ⟨-, -, -, -, -, -, e0, e1, -⟩ := idx_facts t
  match d with
  | ⟨0, _⟩ => show win1_3.index t (0 : Fin 2) * 128 + 1 * a.val = a.val; rw [e0]; omega
  | ⟨1, _⟩ => show win1_3.index t (1 : Fin 2) * 128 + 1 * q.val = q.val; rw [e1]; omega

/-- And the bias row. -/
theorem bias_blk (c : Dev nD) (t : Fin cfg1.N) (q : Fin 128) :
    (iblk1 V c 4 t : Vec Ideal S1x128 .f32) (ix2 (0 : Fin 1) q) = (V c main_v50 : Vec Ideal S1x128 .f32) (ix2 (0 : Fin 1) q) := by
  unfold iblk1
  rw [View.read_apply]
  show (V c main_v50 : Vec Ideal S1x128 .f32) (((cfg1.win 4).blk t).view.emb (ix2 (0 : Fin 1) q)) = _
  refine congrArg (V c main_v50 : Vec Ideal S1x128 .f32) (funext fun d => Fin.ext ?_)
  obtain ⟨-, -, -, -, -, -, -, -, e0, e1, -⟩ := idx_facts t
  match d with
  | ⟨0, _⟩ => show win1_4.index t (0 : Fin 2) * 1 + 1 * 0 = 0; rw [e0]
  | ⟨1, _⟩ => show win1_4.index t (1 : Fin 2) * 128 + 1 * q.val = q.val; rw [e1]; omega

/-! ## One point's write-back -/

/-- The body's arithmetic on blocks that are, entry by entry, rows `5000·n …` of two arrays, two whole weight operands
    and a whole bias row, is the dense layer of those arrays at row `5000·n + r`. -/
theorem dense_of_blocks (A H : Vec Ideal S50000x128 .f32) (Wa Wh : Vec Ideal S128x128 .f32) (b : Vec Ideal S1x128 .f32)
    (x0 x1 : Vec Ideal S5000x128 .f32) (x2 x3 : Vec Ideal S128x128 .f32) (x4 : Vec Ideal S1x128 .f32)
    (n : Nat) (hn : n < 10) (r : Fin 5000) (q : Fin 128)
    (h0 : ∀ a : Fin 128, x0 (ix2 r a) = A (ix2 ⟨5000 * n + r.val, by omega⟩ a))
    (h1 : ∀ a : Fin 128, x1 (ix2 r a) = H (ix2 ⟨5000 * n + r.val, by omega⟩ a))
    (h2 : ∀ a : Fin 128, x2 (ix2 a q) = Wa (ix2 a q))
    (h3 : ∀ a : Fin 128, x3 (ix2 a q) = Wh (ix2 a q))
    (h4 : x4 (ix2 (0 : Fin 1) q) = b (ix2 (0 : Fin 1) q)) :
    k1_pay1 x0 x1 x2 x3 x4 (ix2 r q) = Cert.Spec.dense (N := 128) A H Wa Wh b (ix2 ⟨5000 * n + r.val, by omega⟩ q) := by
  rw [pay_ix2, Cert.Spec.dense_ix2]
  unfold Cert.Spec.denseAt
  simp only [h0, h1, h2, h3, h4]

/-- What the body stores at point `t`, at an entry of its block: the dense layer of the entry arrays at that entry's
    place in the output array (row `5000·t + r` for row `r` of the block). -/
theorem point_eq (c : Dev nD) (t : Fin cfg1.N) (y : S5000x128.Idx) :
    k1_pay1 (iblk1 V c 0 t) (iblk1 V c 1 t) (iblk1 V c 2 t) (iblk1 V c 3 t) (iblk1 V c 4 t) y
      = Cert.Spec.dense (N := 128) (V c main_v45) (V c main_v31) (V c main_v47) (V c main_v49) (V c main_v50)
          (((cfg1.win 5).blk t).view.emb y) := by
  obtain ⟨r, q, rfl⟩ : ∃ (r : Fin 5000) (q : Fin 128), y = ix2 r q := ⟨y 0, y 1, eq_ix2 y⟩
  refine (dense_of_blocks (V c main_v45) (V c main_v31) (V c main_v47) (V c main_v49) (V c main_v50)
    (iblk1 V c 0 t) (iblk1 V c 1 t) (iblk1 V c 2 t) (iblk1 V c 3 t) (iblk1 V c 4 t) t.val (point_lt t) r q
    (agg_blk V c t r) (feat_blk V c t r) (fun a => wa_blk V c t a q) (fun a => wh_blk V c t a q) (bias_blk V c t q)).trans ?_
  refine congrArg (Cert.Spec.dense (N := 128) (V c main_v45) (V c main_v31) (V c main_v47) (V c main_v49) (V c main_v50))
    (funext fun d => Fin.ext ?_)
  obtain ⟨-, -, -, -, -, -, -, -, -, -, e0, e1⟩ := idx_facts t
  match d with
  | ⟨0, _⟩ => show 5000 * t.val + r.val = win1_5.index t (0 : Fin 2) * 5000 + 1 * r.val; rw [e0]; omega
  | ⟨1, _⟩ => show q.val = win1_5.index t (1 : Fin 2) * 128 + 1 * q.val; rw [e1]; omega

/-- WHAT POINT `t` WRITES BACK is block `t` of the dense layer of the arrays the region finds at entry. -/
theorem flushed_eq (c : Dev nD) (t : Fin cfg1.N) :
    (dat1 (F := Ideal) V c).flushed 5 t = ((cfg1.win 5).blk t).view.read (Elt Ideal)
      (Cert.Spec.dense (N := 128) (V c main_v45) (V c main_v31) (V c main_v47) (V c main_v49) (V c main_v50)) := by
  show (cfg1.win 5).cut (grid1.coords t) ((dat1 V c).after 5 t) = _
  rw [after1_5]
  unfold out1_5
  rw [View.canon_unit_zero zero2]
  simp only [View.ld_unit_zero (S := S5000x128) zero2, View.ld_unit_zero (S := S128x128) zero2, View.ld_unit_zero (S := S1x128) zero2]
  funext j
  show k1_pay1 (iblk1 V c 0 t) (iblk1 V c 1 t) (iblk1 V c 2 t) (iblk1 V c 3 t) (iblk1 V c 4 t) j
      = Cert.Spec.dense (N := 128) (V c main_v45) (V c main_v31) (V c main_v47) (V c main_v49) (V c main_v50)
          (((cfg1.win 5).blk t).view.emb j)
  exact point_eq V c t j

/-! ## The ten blocks tile the output -/

/-- An entry of the output array is in point `t`'s block iff each coordinate is in the block's range on its axis. -/
theorem mem_blk (t : Fin cfg1.N) (i : S50000x128.Idx) :
    i ∈ ((cfg1.win 5).blk t).view.set
      ↔ ∀ a : Fin 2, win1_5.index t a * S5000x128.size a ≤ (i a).val ∧ (i a).val < win1_5.index t a * S5000x128.size a + S5000x128.size a := by
  show i ∈ ((View.whole main_v51).slice (win1_5.rect t)).set ↔ _
  rw [View.set_slice_whole, Rect.mem_set_unit]
  exact Iff.rfl

/-- Row `i` of the output lies in the block of point `i / 5000`, which is written back. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_5 _, ?_⟩
  rw [mem_blk]
  obtain ⟨-, -, -, -, -, -, -, -, -, -, e0, e1⟩ := idx_facts ⟨(i 0).val / 5000, by rw [hN]; omega⟩
  intro a
  match a with
  | ⟨0, _⟩ =>
    show win1_5.index ⟨(i 0).val / 5000, _⟩ (0 : Fin 2) * 5000 ≤ (i 0).val
      ∧ (i 0).val < win1_5.index ⟨(i 0).val / 5000, _⟩ (0 : Fin 2) * 5000 + 5000
    rw [e0]
    show (i 0).val / 5000 * 5000 ≤ (i 0).val ∧ (i 0).val < (i 0).val / 5000 * 5000 + 5000
    omega
  | ⟨1, _⟩ =>
    show win1_5.index ⟨(i 0).val / 5000, _⟩ (1 : Fin 2) * 128 ≤ (i 1).val
      ∧ (i 1).val < win1_5.index ⟨(i 0).val / 5000, _⟩ (1 : Fin 2) * 128 + 128
    rw [e1]
    omega

/-- The output array of region 1 after its ten write-backs. -/
theorem final1 (c : Dev nD) :
    (dat1 (F := Ideal) V c).arrAt 5 cfg1.N
      = Cert.Spec.dense (N := 128) (V c main_v45) (V c main_v31) (V c main_v47) (V c main_v49) (V c main_v50) :=
  (dat1 (F := Ideal) V c).arrAt_eq_of_cover 5
    (Cert.Spec.dense (N := 128) (V c main_v45) (V c main_v31) (V c main_v47) (V c main_v49) (V c main_v50))
    (fun t _ => flushed_eq V c t) cover

end Cert.KernelIdeal.KReg1

end
-- ==== Proof.KReg2.lean ====
/-
  Region 2 (the dense layer's pallas_call number 3): what its output array holds after the run, as one function of the
  arrays the region finds when it is entered.

  The grid has 10 points; point t stages rows 5000·t … 5000·t + 4999 of the aggregation and of the features (both
  50000 × 128), the whole two weight operands (128 × 64 each) and the whole bias row (1 × 64), and writes back rows
  5000·t … 5000·t + 4999 of the 50000 × 64 output. The body stores max(A·Wa + H·Wh + b, 0) of its blocks, two matrix
  products into zero accumulators, which at the ideal instance are plain sums over the 128 contracted columns (the
  casts to bf16 are the identity there). Row r of block t is row 5000·t + r of the array, so each write-back is the
  corresponding block of `Cert.Spec.dense` of the entry arrays, and the ten blocks tile the output.
-/
import proofs.«169384_j87686052315764_1_alg».proof.Proof.Gen.KernelIdeal.Frame
import proofs.«169384_j87686052315764_1_alg».proof.Proof.Spec
import proofs.«169384_j87686052315764_1_alg».proof.Proof.LibDot2
import Idealize.ShloMosaic.Lib.Pipeline.Value

set_option maxRecDepth 16384

noncomputable section

namespace Cert.KernelIdeal.KReg2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The zero offsets of a whole-block access, however they are spelt. -/
theorem zero2 : (![0, 0] : Fin 2 → Nat) = fun _ => 0 := funext fun a => by
  match a with
  | ⟨0, _⟩ => rfl
  | ⟨1, _⟩ => rfl

/-! ## The body's matrix products -/

/-- The left operand of the body's product is read at the output's row … -/
theorem dotL0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- … and at the contracted column; -/
theorem dotL1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- the right operand at the contracted row … -/
theorem dotR0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- … and at the output's column. -/
theorem dotR1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- One product of the body, into the zero accumulator, at row `r` and column `q`: the sum over the 128 contracted
    columns. -/
theorem prod_ix2 (l : FVec Ideal S5000x128 .bf16) (w : FVec Ideal S128x64 .bf16) (r : Fin 5000) (q : Fin 64) :
    matmul dot_S5000x128_S128x64_S5000x64_1_0_0_1_n_n none l w (constant (F := Ideal) S5000x64 .f32 0x00000000#32) (ix2 r q)
      = ∑ a : Fin 128, l (ix2 r a) * w (ix2 a q) :=
  Cert.Lib.Dot2.matmul_zero_ix2 dot_S5000x128_S128x64_S5000x64_1_0_0_1_n_n none rfl rfl dotL0 dotL1 dotR0 dotR1 l w r q

/-! ## The body's arithmetic at an entry -/

/-- The bias row, repeated down the block's 5000 rows, read at row `r` and column `q`: its entry at column `q`. -/
theorem bias_ix2 (x4 : Vec Ideal S1x64 .f32) (r : Fin 5000) (q : Fin 64) :
    broadcastTo S5000x64 x4 broadcasts_S1x64_S5000x64 (ix2 r q) = x4 (ix2 (0 : Fin 1) q) :=
  broadcastTo_apply x4 broadcasts_S1x64_S5000x64 (ix2 r q) (ix2 (0 : Fin 1) q) (fun a => by
    match a with
    | ⟨0, _⟩ => show (0 : Nat) = if (1 : Nat) = 1 then 0 else r.val; rw [if_pos rfl]
    | ⟨1, _⟩ => show q.val = if (64 : Nat) = 1 then 0 else q.val; rw [if_neg (by decide)])

/-- What the body stores, at row `r` and column `q` of its block: the two products into zero accumulators are the sums
    over the 128 contracted columns (the casts to bf16 change nothing here), the bias row is read at column `q`, and
    the result is cut below at zero. -/
theorem pay_ix2 (x0 x1 : Vec Ideal S5000x128 .f32) (x2 x3 : Vec Ideal S128x64 .f32) (x4 : Vec Ideal S1x64 .f32)
    (r : Fin 5000) (q : Fin 64) :
    k2_pay1 x0 x1 x2 x3 x4 (ix2 r q)
      = max (((∑ a : Fin 128, x0 (ix2 r a) * x2 (ix2 a q)) + (∑ a : Fin 128, x1 (ix2 r a) * x3 (ix2 a q)))
          + x4 (ix2 (0 : Fin 1) q)) (Ideal.ofBits .f32 0x00000000#32) := by
  unfold k2_pay1
  simp only [shapeCast_self]
  rw [maximumf_apply, addf_apply, addf_apply, broadcast_apply, prod_ix2, prod_ix2, bias_ix2]
  rfl

/-! ## The grid's index maps -/

/-- The grid has ten points. -/
theorem point_lt (t : Fin cfg2.N) : t.val < 10 := Nat.lt_of_lt_of_eq t.isLt N_2

/-- The printed index maps, decided once over the ten points: the aggregation's, the features' and the output's block
    at point `t` is block `(t, 0)`; the two weight operands' and the bias row's is always block `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-! ## The staged blocks, entry by entry -/

/-- Row `r` of the aggregation's block at point `t` is row `5000·t + r` of the aggregation. -/
theorem agg_blk (c : Dev nD) (t : Fin cfg2.N) (r : Fin 5000) (a : Fin 128) :
    (iblk2 V c 0 t : Vec Ideal S5000x128 .f32) (ix2 r a)
      = (V c main_v65 : Vec Ideal S50000x128 .f32) (ix2 ⟨5000 * t.val + r.val, by have := point_lt t; omega⟩ a) := by
  unfold iblk2
  rw [View.read_apply]
  show (V c main_v65 : Vec Ideal S50000x128 .f32) (((cfg2.win 0).blk t).view.emb (ix2 r a)) = _
  refine congrArg (V c main_v65 : Vec Ideal S50000x128 .f32) (funext fun d => Fin.ext ?_)
  obtain ⟨e0, e1, -⟩ := idx_facts t
  match d with
  | ⟨0, _⟩ => show win2_0.index t (0 : Fin 2) * 5000 + 1 * r.val = 5000 * t.val + r.val; rw [e0]; omega
  | ⟨1, _⟩ => show win2_0.index t (1 : Fin 2) * 128 + 1 * a.val = a.val; rw [e1]; omega

/-- Row `r` of the features' block at point `t` is row `5000·t + r` of the features. -/
theorem feat_blk (c : Dev nD) (t : Fin cfg2.N) (r : Fin 5000) (a : Fin 128) :
    (iblk2 V c 1 t : Vec Ideal S5000x128 .f32) (ix2 r a)
      = (V c main_v51 : Vec Ideal S50000x128 .f32) (ix2 ⟨5000 * t.val + r.val, by have := point_lt t; omega⟩ a) := by
  unfold iblk2
  rw [View.read_apply]
  show (V c main_v51 : Vec Ideal S50000x128 .f32) (((cfg2.win 1).blk t).view.emb (ix2 r a)) = _
  refine congrArg (V c main_v51 : Vec Ideal S50000x128 .f32) (funext fun d => Fin.ext ?_)
  obtain ⟨-, -, e0, e1, -⟩ := idx_facts t
  match d with
  | ⟨0, _⟩ => show win2_1.index t (0 : Fin 2) * 5000 + 1 * r.val = 5000 * t.val + r.val; rw [e0]; omega
  | ⟨1, _⟩ => show win2_1.index t (1 : Fin 2) * 128 + 1 * a.val = a.val; rw [e1]; omega

/-- The first weight operand is staged whole at every point. -/
theorem wa_blk (c : Dev nD) (t : Fin cfg2.N) (a : Fin 128) (q : Fin 64) :
    (iblk2 V c 2 t : Vec Ideal S128x64 .f32) (ix2 a q) = (V c main_v67 : Vec Ideal S128x64 .f32) (ix2 a q) := by
  unfold iblk2
  rw [View.read_apply]
  show (V c main_v67 : Vec Ideal S128x64 .f32) (((cfg2.win 2).blk t).view.emb (ix2 a q)) = _
  refine congrArg (V c main_v67 : Vec Ideal S128x64 .f32) (funext fun d => Fin.ext ?_)
  obtain ⟨-, -, -, -, e0, e1, -⟩ := idx_facts t
  match d with
  | ⟨0, _⟩ => show win2_2.index t (0 : Fin 2) * 128 + 1 * a.val = a.val; rw [e0]; omega
  | ⟨1, _⟩ => show win2_2.index t (1 : Fin 2) * 64 + 1 * q.val = q.val; rw [e1]; omega

/-- So is the second. -/
theorem wh_blk (c : Dev nD) (t : Fin cfg2.N) (a : Fin 128) (q : Fin 64) :
    (iblk2 V c 3 t : Vec Ideal S128x64 .f32) (ix2 a q) = (V c main_v69 : Vec Ideal S128x64 .f32) (ix2 a q) := by
  unfold iblk2
  rw [View.read_apply]
  show (V c main_v69 : Vec Ideal S128x64 .f32) (((cfg2.win 3).blk t).view.emb (ix2 a q)) = _
  refine congrArg (V c main_v69 : Vec Ideal S128x64 .f32) (funext fun d => Fin.ext ?_)
  obtain ⟨-, -, -, -, -, -, e0, e1, -⟩ := idx_facts t
  match d with
  | ⟨0, _⟩ => show win2_3.index t (0 : Fin 2) * 128 + 1 * a.val = a.val; rw [e0]; omega
  | ⟨1, _⟩ => show win2_3.index t (1 : Fin 2) * 64 + 1 * q.val = q.val; rw [e1]; omega

/-- And the bias row. -/
theorem bias_blk (c : Dev nD) (t : Fin cfg2.N) (q : Fin 64) :
    (iblk2 V c 4 t : Vec Ideal S1x64 .f32) (ix2 (0 : Fin 1) q) = (V c main_v70 : Vec Ideal S1x64 .f32) (ix2 (0 : Fin 1) q) := by
  unfold iblk2
  rw [View.read_apply]
  show (V c main_v70 : Vec Ideal S1x64 .f32) (((cfg2.win 4).blk t).view.emb (ix2 (0 : Fin 1) q)) = _
  refine congrArg (V c main_v70 : Vec Ideal S1x64 .f32) (funext fun d => Fin.ext ?_)
  obtain ⟨-, -, -, -, -, -, -, -, e0, e1, -⟩ := idx_facts t
  match d with
  | ⟨0, _⟩ => show win2_4.index t (0 : Fin 2) * 1 + 1 * 0 = 0; rw [e0]
  | ⟨1, _⟩ => show win2_4.index t (1 : Fin 2) * 64 + 1 * q.val = q.val; rw [e1]; omega

/-! ## One point's write-back -/

/-- The body's arithmetic on blocks that are, entry by entry, rows `5000·n …` of two arrays, two whole weight operands
    and a whole bias row, is the dense layer of those arrays at row `5000·n + r`. -/
theorem dense_of_blocks (A H : Vec Ideal S50000x128 .f32) (Wa Wh : Vec Ideal S128x64 .f32) (b : Vec Ideal S1x64 .f32)
    (x0 x1 : Vec Ideal S5000x128 .f32) (x2 x3 : Vec Ideal S128x64 .f32) (x4 : Vec Ideal S1x64 .f32)
    (n : Nat) (hn : n < 10) (r : Fin 5000) (q : Fin 64)
    (h0 : ∀ a : Fin 128, x0 (ix2 r a) = A (ix2 ⟨5000 * n + r.val, by omega⟩ a))
    (h1 : ∀ a : Fin 128, x1 (ix2 r a) = H (ix2 ⟨5000 * n + r.val, by omega⟩ a))
    (h2 : ∀ a : Fin 128, x2 (ix2 a q) = Wa (ix2 a q))
    (h3 : ∀ a : Fin 128, x3 (ix2 a q) = Wh (ix2 a q))
    (h4 : x4 (ix2 (0 : Fin 1) q) = b (ix2 (0 : Fin 1) q)) :
    k2_pay1 x0 x1 x2 x3 x4 (ix2 r q) = Cert.Spec.dense (N := 64) A H Wa Wh b (ix2 ⟨5000 * n + r.val, by omega⟩ q) := by
  rw [pay_ix2, Cert.Spec.dense_ix2]
  unfold Cert.Spec.denseAt
  simp only [h0, h1, h2, h3, h4]

/-- What the body stores at point `t`, at an entry of its block: the dense layer of the entry arrays at that entry's
    place in the output array (row `5000·t + r` for row `r` of the block). -/
theorem point_eq (c : Dev nD) (t : Fin cfg2.N) (y : S5000x64.Idx) :
    k2_pay1 (iblk2 V c 0 t) (iblk2 V c 1 t) (iblk2 V c 2 t) (iblk2 V c 3 t) (iblk2 V c 4 t) y
      = Cert.Spec.dense (N := 64) (V c main_v65) (V c main_v51) (V c main_v67) (V c main_v69) (V c main_v70)
          (((cfg2.win 5).blk t).view.emb y) := by
  obtain ⟨r, q, rfl⟩ : ∃ (r : Fin 5000) (q : Fin 64), y = ix2 r q := ⟨y 0, y 1, eq_ix2 y⟩
  refine (dense_of_blocks (V c main_v65) (V c main_v51) (V c main_v67) (V c main_v69) (V c main_v70)
    (iblk2 V c 0 t) (iblk2 V c 1 t) (iblk2 V c 2 t) (iblk2 V c 3 t) (iblk2 V c 4 t) t.val (point_lt t) r q
    (agg_blk V c t r) (feat_blk V c t r) (fun a => wa_blk V c t a q) (fun a => wh_blk V c t a q) (bias_blk V c t q)).trans ?_
  refine congrArg (Cert.Spec.dense (N := 64) (V c main_v65) (V c main_v51) (V c main_v67) (V c main_v69) (V c main_v70))
    (funext fun d => Fin.ext ?_)
  obtain ⟨-, -, -, -, -, -, -, -, -, -, e0, e1⟩ := idx_facts t
  match d with
  | ⟨0, _⟩ => show 5000 * t.val + r.val = win2_5.index t (0 : Fin 2) * 5000 + 1 * r.val; rw [e0]; omega
  | ⟨1, _⟩ => show q.val = win2_5.index t (1 : Fin 2) * 64 + 1 * q.val; rw [e1]; omega

/-- WHAT POINT `t` WRITES BACK is block `t` of the dense layer of the arrays the region finds at entry. -/
theorem flushed_eq (c : Dev nD) (t : Fin cfg2.N) :
    (dat2 (F := Ideal) V c).flushed 5 t = ((cfg2.win 5).blk t).view.read (Elt Ideal)
      (Cert.Spec.dense (N := 64) (V c main_v65) (V c main_v51) (V c main_v67) (V c main_v69) (V c main_v70)) := by
  show (cfg2.win 5).cut (grid2.coords t) ((dat2 V c).after 5 t) = _
  rw [after2_5]
  unfold out2_5
  rw [View.canon_unit_zero zero2]
  simp only [View.ld_unit_zero (S := S5000x128) zero2, View.ld_unit_zero (S := S128x64) zero2, View.ld_unit_zero (S := S1x64) zero2]
  funext j
  show k2_pay1 (iblk2 V c 0 t) (iblk2 V c 1 t) (iblk2 V c 2 t) (iblk2 V c 3 t) (iblk2 V c 4 t) j
      = Cert.Spec.dense (N := 64) (V c main_v65) (V c main_v51) (V c main_v67) (V c main_v69) (V c main_v70)
          (((cfg2.win 5).blk t).view.emb j)
  exact point_eq V c t j

/-! ## The ten blocks tile the output -/

/-- An entry of the output array is in point `t`'s block iff each coordinate is in the block's range on its axis. -/
theorem mem_blk (t : Fin cfg2.N) (i : S50000x64.Idx) :
    i ∈ ((cfg2.win 5).blk t).view.set
      ↔ ∀ a : Fin 2, win2_5.index t a * S5000x64.size a ≤ (i a).val ∧ (i a).val < win2_5.index t a * S5000x64.size a + S5000x64.size a := by
  show i ∈ ((View.whole main_v71).slice (win2_5.rect t)).set ↔ _
  rw [View.set_slice_whole, Rect.mem_set_unit]
  exact Iff.rfl

/-- Row `i` of the output lies in the block of point `i / 5000`, which is written back. -/
theorem cover (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  have hN : cfg2.N = 10 := N_2
  refine ⟨⟨(i 0).val / 5000, by rw [hN]; omega⟩, flush2_5 _, ?_⟩
  rw [mem_blk]
  obtain ⟨-, -, -, -, -, -, -, -, -, -, e0, e1⟩ := idx_facts ⟨(i 0).val / 5000, by rw [hN]; omega⟩
  intro a
  match a with
  | ⟨0, _⟩ =>
    show win2_5.index ⟨(i 0).val / 5000, _⟩ (0 : Fin 2) * 5000 ≤ (i 0).val
      ∧ (i 0).val < win2_5.index ⟨(i 0).val / 5000, _⟩ (0 : Fin 2) * 5000 + 5000
    rw [e0]
    show (i 0).val / 5000 * 5000 ≤ (i 0).val ∧ (i 0).val < (i 0).val / 5000 * 5000 + 5000
    omega
  | ⟨1, _⟩ =>
    show win2_5.index ⟨(i 0).val / 5000, _⟩ (1 : Fin 2) * 64 ≤ (i 1).val
      ∧ (i 1).val < win2_5.index ⟨(i 0).val / 5000, _⟩ (1 : Fin 2) * 64 + 64
    rw [e1]
    omega

/-- The output array of region 2 after its ten write-backs. -/
theorem final2 (c : Dev nD) :
    (dat2 (F := Ideal) V c).arrAt 5 cfg2.N
      = Cert.Spec.dense (N := 64) (V c main_v65) (V c main_v51) (V c main_v67) (V c main_v69) (V c main_v70) :=
  (dat2 (F := Ideal) V c).arrAt_eq_of_cover 5
    (Cert.Spec.dense (N := 64) (V c main_v65) (V c main_v51) (V c main_v67) (V c main_v69) (V c main_v70))
    (fun t _ => flushed_eq V c t) cover

end Cert.KernelIdeal.KReg2

end
-- ==== Proof.Chain.lean ====
/-
  The part of the network both programs spell with the same host operations, kept closed.

  `agg h` is one layer's neighbour aggregation of the features `h`: gather the rows of `h` at the (wrapped) source
  nodes, scale each gathered row by its edge weight, add the rows up into their destination nodes, and scale node
  `n`'s sum by the inverse in-degree (zero for a node no edge enters). Nothing below ever opens the gather or the
  scatter: the three aggregation stages of the reference are this one function of three different feature arrays
  (`agg1`, `agg2`, `agg3`), and `net` is the whole network, three dense layers each fed by `agg` of the layer
  before.
-/
import proofs.«169384_j87686052315764_1_alg».proof.Proof.RefReadP
import proofs.«169384_j87686052315764_1_alg».proof.Proof.Spec

noncomputable section

namespace Cert.Chain

open Idealize.ShloMosaic Cert.ReferenceIdeal Cert.ReferenceIdeal.ReadP

/-- One layer's mean aggregation of the features `h` over the graph (`x1` edge weights, `x2` sources, `x3` destinations). -/
def agg (h : FVec Ideal S50000x128 .f32) (x1 : FVec Ideal S1600000x1 .f32) (x2 x3 : (⟨S1600000, .i32⟩ : BufTy).Contents (Elt Ideal)) : FVec Ideal S50000x128 .f32 :=
  mulf (F := Ideal) (Host.scatterAdd (F := Ideal) scatter_S50000x128_S1600000x1_S1600000x128_1_0_0_1 (val_main_v21 (F := Ideal)) (val_main_v22 (F := Ideal) x3)
      (mulf (F := Ideal) (Host.gather gather_S50000x128_S1600000x1_S1600000x128_1_0_n_n_0_1_1128 h (val_main_v17 (F := Ideal) x2)) (val_main_v19 (F := Ideal) x1)))
    (val_main_v24 (F := Ideal) x3)

/-- The first aggregation is `agg` of the input features. -/
theorem agg1 (x0 : FVec Ideal S50000x128 .f32) (x1 : FVec Ideal S1600000x1 .f32) (x2 x3 : (⟨S1600000, .i32⟩ : BufTy).Contents (Elt Ideal)) :
    val_main_v25 (F := Ideal) x0 x1 x2 x3 = agg x0 x1 x2 x3 := rfl

/-- The second aggregation is `agg` of the first layer's output. -/
theorem agg2 (x0 : FVec Ideal S50000x128 .f32) (x1 : FVec Ideal S1600000x1 .f32) (x2 x3 : (⟨S1600000, .i32⟩ : BufTy).Contents (Elt Ideal)) (x4 : FVec Ideal S128x256 .f32) (x5 : FVec Ideal S128 .f32) :
    val_main_v46 (F := Ideal) x0 x1 x2 x3 x4 x5 = agg (val_main_v32 (F := Ideal) x0 x1 x2 x3 x4 x5) x1 x2 x3 := rfl

/-- The third aggregation is `agg` of the second layer's output. -/
theorem agg3 (x0 : FVec Ideal S50000x128 .f32) (x1 : FVec Ideal S1600000x1 .f32) (x2 x3 : (⟨S1600000, .i32⟩ : BufTy).Contents (Elt Ideal)) (x4 : FVec Ideal S128x256 .f32) (x5 : FVec Ideal S128 .f32) (x6 : FVec Ideal S128x256 .f32) (x7 : FVec Ideal S128 .f32) :
    val_main_v67 (F := Ideal) x0 x1 x2 x3 x4 x5 x6 x7 = agg (val_main_v53 (F := Ideal) x0 x1 x2 x3 x4 x5 x6 x7) x1 x2 x3 := rfl

/-- The network: three dense layers, each on the aggregation of the features before it and on those features. -/
def net (x0 : FVec Ideal S50000x128 .f32) (x1 : FVec Ideal S1600000x1 .f32) (x2 x3 : (⟨S1600000, .i32⟩ : BufTy).Contents (Elt Ideal)) (x4 : FVec Ideal S128x256 .f32) (x5 : FVec Ideal S128 .f32) (x6 : FVec Ideal S128x256 .f32) (x7 : FVec Ideal S128 .f32) (x8 : FVec Ideal S64x256 .f32) (x9 : FVec Ideal S64 .f32) : FVec Ideal S50000x64 .f32 :=
  let h1 : FVec Ideal S50000x128 .f32 := Cert.Spec.layer (N := 128) (agg x0 x1 x2 x3) x0 x4 x5
  let h2 : FVec Ideal S50000x128 .f32 := Cert.Spec.layer (N := 128) (agg h1 x1 x2 x3) h1 x6 x7
  Cert.Spec.layer (N := 64) (agg h2 x1 x2 x3) h2 x8 x9

end Cert.Chain

end
-- ==== Proof.KHost.lean ====
/-
  What each region of the kernel's program finds in its five operand arrays when it is entered, read off the host
  operations that run before it.

  Before region 0 the host computes the inverse in-degrees, the first aggregation of the input features, the two
  transposed halves of the first weight matrix and the first bias as a row. Before region 1 it computes the same of
  region 0's output array and of the second weights and bias; before region 2 the same of region 1's output and of
  the third. No host operation and no region writes an argument array, the inverse in-degrees are computed once and
  reused, and a region writes only its own output array, so each operand is the stated function of the launch
  memory and of the previous region's output array, which is left as it is (not opened) here.
-/
import proofs.«169384_j87686052315764_1_alg».proof.Proof.Gen.KernelIdeal.Frame
import proofs.«169384_j87686052315764_1_alg».proof.Proof.Chain
import Idealize.ShloMosaic.Lib.StableHlo.Run

set_option maxRecDepth 16384

noncomputable section

namespace Cert.KernelIdeal.KHost

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! ## The host operations read back over any float family

The host stretches' results are first read at an arbitrary float family `F`, where an equation between two
spellings of the same operations is a structural comparison of the two terms; the statements at the extended reals
below are these at `F := Ideal`. -/

section AnyFloat

variable {F : FTy → Type} [FloatOps F] (m : (ℓ : Loc nD τ sig) → Buf (Elt F) ℓ) (ρ : Dev nD → PrngReg) (c : Dev nD)

open Cert.ReferenceIdeal.ReadP

/-- One layer's neighbour aggregation of the features `h` over any float family: gather the rows of `h` at the wrapped
    sources, scale each by its edge weight, add them up into the destinations, scale by the inverse in-degrees. -/
def aggF (h : (⟨Cert.ReferenceIdeal.S50000x128, .f32⟩ : BufTy).Contents (Elt F)) (x1 : (⟨Cert.ReferenceIdeal.S1600000x1, .f32⟩ : BufTy).Contents (Elt F))
    (x2 x3 : (⟨Cert.ReferenceIdeal.S1600000, .i32⟩ : BufTy).Contents (Elt F)) : (⟨Cert.ReferenceIdeal.S50000x128, .f32⟩ : BufTy).Contents (Elt F) :=
  mulf (Host.scatterAdd Cert.ReferenceIdeal.scatter_S50000x128_S1600000x1_S1600000x128_1_0_0_1 (val_main_v21 (F := F)) (val_main_v22 (F := F) x3)
      (mulf (Host.gather Cert.ReferenceIdeal.gather_S50000x128_S1600000x1_S1600000x128_1_0_n_n_0_1_1128 h (val_main_v17 (F := F) x2)) (val_main_v19 (F := F) x1)))
    (val_main_v24 (F := F) x3)

/-! ### Region 0's entry: the three stretches before it, from the launch memory -/

/-- The edge weights, the sources and the destinations are written by no host operation before region 0. -/
theorem W3_arg1 : W3 m ρ c (Proc.devRef .tc main_arg1) = m ((c : Thread nD τ).loc main_arg1) := by
  show StableHlo.after hostOps0_2 (W2 m ρ c) (Proc.devRef .tc main_arg1) = _
  after_results_simp
  all_goals rfl
theorem W3_arg2 : W3 m ρ c (Proc.devRef .tc main_arg2) = m ((c : Thread nD τ).loc main_arg2) := by
  show StableHlo.after hostOps0_2 (W2 m ρ c) (Proc.devRef .tc main_arg2) = _
  after_results_simp
  all_goals rfl
theorem W3_arg3 : W3 m ρ c (Proc.devRef .tc main_arg3) = m ((c : Thread nD τ).loc main_arg3) := by
  show StableHlo.after hostOps0_2 (W2 m ρ c) (Proc.devRef .tc main_arg3) = _
  after_results_simp
  all_goals rfl
/-- Nor are the second layer's weights and bias. -/
theorem W3_arg6 : W3 m ρ c (Proc.devRef .tc main_arg6) = m ((c : Thread nD τ).loc main_arg6) := by
  show StableHlo.after hostOps0_2 (W2 m ρ c) (Proc.devRef .tc main_arg6) = _
  after_results_simp
  all_goals rfl
theorem W3_arg7 : W3 m ρ c (Proc.devRef .tc main_arg7) = m ((c : Thread nD τ).loc main_arg7) := by
  show StableHlo.after hostOps0_2 (W2 m ρ c) (Proc.devRef .tc main_arg7) = _
  after_results_simp
  all_goals rfl

/-- The inverse in-degree column at region 0's entry is the reference's stage of the destinations alone. -/
theorem W3_v11 : W3 m ρ c (Proc.devRef .tc main_v11) = val_main_v11 (F := F) (m ((c : Thread nD τ).loc main_arg3)) := by
  show StableHlo.after hostOps0_2 (W2 m ρ c) (Proc.devRef .tc main_v11) = _
  after_results_simp
  simp only [StableHlo.TRef.ofBuf, StableHlo.TRef.toBuf, cast_eq]
  rfl

/-- The first aggregation: the host's gather, scaling, scatter-add and scaling of the input features. -/
theorem W3_v25 : W3 m ρ c (Proc.devRef .tc main_v25)
    = aggF (m ((c : Thread nD τ).loc main_arg0)) (m ((c : Thread nD τ).loc main_arg1)) (m ((c : Thread nD τ).loc main_arg2)) (m ((c : Thread nD τ).loc main_arg3)) := by
  show StableHlo.after hostOps0_2 (W2 m ρ c) (Proc.devRef .tc main_v25) = _
  after_results_simp
  simp only [StableHlo.TRef.ofBuf, StableHlo.TRef.toBuf, cast_eq]
  rfl

/-- The input features are written by no host operation before region 0. -/
theorem W3_arg0 : W3 m ρ c (Proc.devRef .tc main_arg0) = m ((c : Thread nD τ).loc main_arg0) := by
  show StableHlo.after hostOps0_2 (W2 m ρ c) (Proc.devRef .tc main_arg0) = _
  after_results_simp
  all_goals rfl
/-- The two transposed halves of the first weight matrix, and the first bias as a row. -/
theorem W3_v27 : W3 m ρ c (Proc.devRef .tc main_v27)
    = transpose S128x128 [1, 0] (extractStridedSlice S128x128 ![0, 0] (m ((c : Thread nD τ).loc main_arg4)) slices_S128x256_S128x128_0_0) transposes_S128x128_S128x128_1_0 := by
  show StableHlo.after hostOps0_2 (W2 m ρ c) (Proc.devRef .tc main_v27) = _
  after_results_simp
  all_goals rfl
theorem W3_v29 : W3 m ρ c (Proc.devRef .tc main_v29)
    = transpose S128x128 [1, 0] (extractStridedSlice S128x128 ![0, 128] (m ((c : Thread nD τ).loc main_arg4)) slices_S128x256_S128x128_0_128) transposes_S128x128_S128x128_1_0 := by
  show StableHlo.after hostOps0_2 (W2 m ρ c) (Proc.devRef .tc main_v29) = _
  after_results_simp
  all_goals rfl
theorem W3_v30 : W3 m ρ c (Proc.devRef .tc main_v30) = shapeCast S1x128 (m ((c : Thread nD τ).loc main_arg5)) shapeCasts_S128_S1x128 := by
  show StableHlo.after hostOps0_2 (W2 m ρ c) (Proc.devRef .tc main_v30) = _
  after_results_simp
  all_goals rfl

/-! ### Region 1's entry: region 0 writes only its output array, the next stretch none of the arrays below -/

theorem W4_arg1 : W4 m ρ c (Proc.devRef .tc main_arg1) = m ((c : Thread nD τ).loc main_arg1) :=
  (W4_of_ne m ρ c main_arg1 (by decide)).trans (W3_arg1 m ρ c)
theorem W4_arg2 : W4 m ρ c (Proc.devRef .tc main_arg2) = m ((c : Thread nD τ).loc main_arg2) :=
  (W4_of_ne m ρ c main_arg2 (by decide)).trans (W3_arg2 m ρ c)
theorem W4_arg3 : W4 m ρ c (Proc.devRef .tc main_arg3) = m ((c : Thread nD τ).loc main_arg3) :=
  (W4_of_ne m ρ c main_arg3 (by decide)).trans (W3_arg3 m ρ c)
theorem W4_arg6 : W4 m ρ c (Proc.devRef .tc main_arg6) = m ((c : Thread nD τ).loc main_arg6) :=
  (W4_of_ne m ρ c main_arg6 (by decide)).trans (W3_arg6 m ρ c)
theorem W4_arg7 : W4 m ρ c (Proc.devRef .tc main_arg7) = m ((c : Thread nD τ).loc main_arg7) :=
  (W4_of_ne m ρ c main_arg7 (by decide)).trans (W3_arg7 m ρ c)
/-- The inverse in-degree column is computed once, before region 0, and is still there after it. -/
theorem W4_v11 : W4 m ρ c (Proc.devRef .tc main_v11) = val_main_v11 (F := F) (m ((c : Thread nD τ).loc main_arg3)) :=
  (W4_of_ne m ρ c main_v11 (by decide)).trans (W3_v11 m ρ c)

/-- The second aggregation: the same host operations on region 0's output array. -/
theorem W5_v45 : W5 m ρ c (Proc.devRef .tc main_v45)
    = aggF (W4 m ρ c (Proc.devRef .tc main_v31)) (m ((c : Thread nD τ).loc main_arg1)) (m ((c : Thread nD τ).loc main_arg2)) (m ((c : Thread nD τ).loc main_arg3)) := by
  show StableHlo.after hostOps1 (W4 m ρ c) (Proc.devRef .tc main_v45) = _
  after_results_simp
  rw [W4_arg1 m ρ c, W4_arg2 m ρ c, W4_arg3 m ρ c, W4_v11 m ρ c]
  rfl
/-- Region 0's output array is written by no host operation after it. -/
theorem W5_v31 : W5 m ρ c (Proc.devRef .tc main_v31) = W4 m ρ c (Proc.devRef .tc main_v31) := by
  show StableHlo.after hostOps1 (W4 m ρ c) (Proc.devRef .tc main_v31) = _
  after_results_simp
theorem W5_v47 : W5 m ρ c (Proc.devRef .tc main_v47)
    = transpose S128x128 [1, 0] (extractStridedSlice S128x128 ![0, 0] (m ((c : Thread nD τ).loc main_arg6)) slices_S128x256_S128x128_0_0) transposes_S128x128_S128x128_1_0 := by
  show StableHlo.after hostOps1 (W4 m ρ c) (Proc.devRef .tc main_v47) = _
  after_results_simp
  rw [W4_arg6 m ρ c]
theorem W5_v49 : W5 m ρ c (Proc.devRef .tc main_v49)
    = transpose S128x128 [1, 0] (extractStridedSlice S128x128 ![0, 128] (m ((c : Thread nD τ).loc main_arg6)) slices_S128x256_S128x128_0_128) transposes_S128x128_S128x128_1_0 := by
  show StableHlo.after hostOps1 (W4 m ρ c) (Proc.devRef .tc main_v49) = _
  after_results_simp
  rw [W4_arg6 m ρ c]
theorem W5_v50 : W5 m ρ c (Proc.devRef .tc main_v50) = shapeCast S1x128 (m ((c : Thread nD τ).loc main_arg7)) shapeCasts_S128_S1x128 := by
  show StableHlo.after hostOps1 (W4 m ρ c) (Proc.devRef .tc main_v50) = _
  after_results_simp
  rw [W4_arg7 m ρ c]
  rfl

/-! ### Region 2's entry: region 1 writes only its output array, the stretches around it none of the arrays below -/

/-- The third layer's weights and bias are written by no host operation before region 0. -/
theorem W3_arg8 : W3 m ρ c (Proc.devRef .tc main_arg8) = m ((c : Thread nD τ).loc main_arg8) := by
  show StableHlo.after hostOps0_2 (W2 m ρ c) (Proc.devRef .tc main_arg8) = _
  after_results_simp
  all_goals rfl
theorem W3_arg9 : W3 m ρ c (Proc.devRef .tc main_arg9) = m ((c : Thread nD τ).loc main_arg9) := by
  show StableHlo.after hostOps0_2 (W2 m ρ c) (Proc.devRef .tc main_arg9) = _
  after_results_simp
  all_goals rfl
theorem W4_arg8 : W4 m ρ c (Proc.devRef .tc main_arg8) = m ((c : Thread nD τ).loc main_arg8) :=
  (W4_of_ne m ρ c main_arg8 (by decide)).trans (W3_arg8 m ρ c)
theorem W4_arg9 : W4 m ρ c (Proc.devRef .tc main_arg9) = m ((c : Thread nD τ).loc main_arg9) :=
  (W4_of_ne m ρ c main_arg9 (by decide)).trans (W3_arg9 m ρ c)
theorem W5_arg1 : W5 m ρ c (Proc.devRef .tc main_arg1) = m ((c : Thread nD τ).loc main_arg1) := by
  show StableHlo.after hostOps1 (W4 m ρ c) (Proc.devRef .tc main_arg1) = _
  after_results_simp
  exact W4_arg1 m ρ c
theorem W6_arg1 : W6 m ρ c (Proc.devRef .tc main_arg1) = m ((c : Thread nD τ).loc main_arg1) :=
  (W6_of_ne m ρ c main_arg1 (by decide)).trans (W5_arg1 m ρ c)
theorem W5_arg2 : W5 m ρ c (Proc.devRef .tc main_arg2) = m ((c : Thread nD τ).loc main_arg2) := by
  show StableHlo.after hostOps1 (W4 m ρ c) (Proc.devRef .tc main_arg2) = _
  after_results_simp
  exact W4_arg2 m ρ c
theorem W6_arg2 : W6 m ρ c (Proc.devRef .tc main_arg2) = m ((c : Thread nD τ).loc main_arg2) :=
  (W6_of_ne m ρ c main_arg2 (by decide)).trans (W5_arg2 m ρ c)
theorem W5_arg3 : W5 m ρ c (Proc.devRef .tc main_arg3) = m ((c : Thread nD τ).loc main_arg3) := by
  show StableHlo.after hostOps1 (W4 m ρ c) (Proc.devRef .tc main_arg3) = _
  after_results_simp
  exact W4_arg3 m ρ c
theorem W6_arg3 : W6 m ρ c (Proc.devRef .tc main_arg3) = m ((c : Thread nD τ).loc main_arg3) :=
  (W6_of_ne m ρ c main_arg3 (by decide)).trans (W5_arg3 m ρ c)
theorem W5_arg8 : W5 m ρ c (Proc.devRef .tc main_arg8) = m ((c : Thread nD τ).loc main_arg8) := by
  show StableHlo.after hostOps1 (W4 m ρ c) (Proc.devRef .tc main_arg8) = _
  after_results_simp
  exact W4_arg8 m ρ c
theorem W6_arg8 : W6 m ρ c (Proc.devRef .tc main_arg8) = m ((c : Thread nD τ).loc main_arg8) :=
  (W6_of_ne m ρ c main_arg8 (by decide)).trans (W5_arg8 m ρ c)
theorem W5_arg9 : W5 m ρ c (Proc.devRef .tc main_arg9) = m ((c : Thread nD τ).loc main_arg9) := by
  show StableHlo.after hostOps1 (W4 m ρ c) (Proc.devRef .tc main_arg9) = _
  after_results_simp
  exact W4_arg9 m ρ c
theorem W6_arg9 : W6 m ρ c (Proc.devRef .tc main_arg9) = m ((c : Thread nD τ).loc main_arg9) :=
  (W6_of_ne m ρ c main_arg9 (by decide)).trans (W5_arg9 m ρ c)
/-- The inverse in-degree column is still the one computed before region 0. -/
theorem W5_v11 : W5 m ρ c (Proc.devRef .tc main_v11) = val_main_v11 (F := F) (m ((c : Thread nD τ).loc main_arg3)) := by
  show StableHlo.after hostOps1 (W4 m ρ c) (Proc.devRef .tc main_v11) = _
  after_results_simp
  exact W4_v11 m ρ c
theorem W6_v11 : W6 m ρ c (Proc.devRef .tc main_v11) = val_main_v11 (F := F) (m ((c : Thread nD τ).loc main_arg3)) :=
  (W6_of_ne m ρ c main_v11 (by decide)).trans (W5_v11 m ρ c)

/-- The third aggregation: the same host operations on region 1's output array. -/
theorem W7_v65 : W7 m ρ c (Proc.devRef .tc main_v65)
    = aggF (W6 m ρ c (Proc.devRef .tc main_v51)) (m ((c : Thread nD τ).loc main_arg1)) (m ((c : Thread nD τ).loc main_arg2)) (m ((c : Thread nD τ).loc main_arg3)) := by
  show StableHlo.after hostOps2 (W6 m ρ c) (Proc.devRef .tc main_v65) = _
  after_results_simp
  rw [W6_arg1 m ρ c, W6_arg2 m ρ c, W6_arg3 m ρ c, W6_v11 m ρ c]
  rfl
/-- Region 1's output array is written by no host operation after it. -/
theorem W7_v51 : W7 m ρ c (Proc.devRef .tc main_v51) = W6 m ρ c (Proc.devRef .tc main_v51) := by
  show StableHlo.after hostOps2 (W6 m ρ c) (Proc.devRef .tc main_v51) = _
  after_results_simp
theorem W7_v67 : W7 m ρ c (Proc.devRef .tc main_v67)
    = transpose S128x64 [1, 0] (extractStridedSlice S64x128 ![0, 0] (m ((c : Thread nD τ).loc main_arg8)) slices_S64x256_S64x128_0_0) transposes_S64x128_S128x64_1_0 := by
  show StableHlo.after hostOps2 (W6 m ρ c) (Proc.devRef .tc main_v67) = _
  after_results_simp
  rw [W6_arg8 m ρ c]
theorem W7_v69 : W7 m ρ c (Proc.devRef .tc main_v69)
    = transpose S128x64 [1, 0] (extractStridedSlice S64x128 ![0, 128] (m ((c : Thread nD τ).loc main_arg8)) slices_S64x256_S64x128_0_128) transposes_S64x128_S128x64_1_0 := by
  show StableHlo.after hostOps2 (W6 m ρ c) (Proc.devRef .tc main_v69) = _
  after_results_simp
  rw [W6_arg8 m ρ c]
theorem W7_v70 : W7 m ρ c (Proc.devRef .tc main_v70) = shapeCast S1x64 (m ((c : Thread nD τ).loc main_arg9)) shapeCasts_S64_S1x64 := by
  show StableHlo.after hostOps2 (W6 m ρ c) (Proc.devRef .tc main_v70) = _
  after_results_simp
  rw [W6_arg9 m ρ c]
  rfl

end AnyFloat

/-- At the extended reals `aggF` is the aggregation both programs share. -/
theorem aggF_ideal (h : FVec Ideal Cert.ReferenceIdeal.S50000x128 .f32) (x1 : FVec Ideal Cert.ReferenceIdeal.S1600000x1 .f32)
    (x2 x3 : (⟨Cert.ReferenceIdeal.S1600000, .i32⟩ : BufTy).Contents (Elt Ideal)) :
    aggF (F := Ideal) h x1 x2 x3 = Cert.Chain.agg h x1 x2 x3 := rfl

variable (m : (ℓ : Loc nD τ sig) → Buf (Elt Ideal) ℓ) (ρ : Dev nD → PrngReg) (c : Dev nD)

/-! ## Region 0's operands -/

theorem V3_v25 : V3 m ρ c main_v25 = Cert.Chain.agg (m ((c : Thread nD τ).loc main_arg0)) (m ((c : Thread nD τ).loc main_arg1)) (m ((c : Thread nD τ).loc main_arg2)) (m ((c : Thread nD τ).loc main_arg3)) := by
  exact (W3_v25 (F := Ideal) m ρ c).trans (aggF_ideal _ _ _ _)
theorem V3_arg0 : V3 m ρ c main_arg0 = m ((c : Thread nD τ).loc main_arg0) := by
  exact W3_arg0 (F := Ideal) m ρ c
theorem V3_v27 : V3 m ρ c main_v27
    = transpose S128x128 [1, 0] (extractStridedSlice S128x128 ![0, 0] (m ((c : Thread nD τ).loc main_arg4)) slices_S128x256_S128x128_0_0) transposes_S128x128_S128x128_1_0 := by
  exact W3_v27 (F := Ideal) m ρ c
theorem V3_v29 : V3 m ρ c main_v29
    = transpose S128x128 [1, 0] (extractStridedSlice S128x128 ![0, 128] (m ((c : Thread nD τ).loc main_arg4)) slices_S128x256_S128x128_0_128) transposes_S128x128_S128x128_1_0 := by
  exact W3_v29 (F := Ideal) m ρ c
theorem V3_v30 : V3 m ρ c main_v30 = shapeCast S1x128 (m ((c : Thread nD τ).loc main_arg5)) shapeCasts_S128_S1x128 := by
  exact W3_v30 (F := Ideal) m ρ c

/-! ## Region 1's operands, over region 0's output array `V4 m ρ c main_v31` -/

theorem V5_v45 : V5 m ρ c main_v45 = Cert.Chain.agg (V4 m ρ c main_v31) (m ((c : Thread nD τ).loc main_arg1)) (m ((c : Thread nD τ).loc main_arg2)) (m ((c : Thread nD τ).loc main_arg3)) := by
  exact (W5_v45 (F := Ideal) m ρ c).trans (aggF_ideal _ _ _ _)
theorem V5_v31 : V5 m ρ c main_v31 = V4 m ρ c main_v31 := by
  exact W5_v31 (F := Ideal) m ρ c
theorem V5_v47 : V5 m ρ c main_v47
    = transpose S128x128 [1, 0] (extractStridedSlice S128x128 ![0, 0] (m ((c : Thread nD τ).loc main_arg6)) slices_S128x256_S128x128_0_0) transposes_S128x128_S128x128_1_0 := by
  exact W5_v47 (F := Ideal) m ρ c
theorem V5_v49 : V5 m ρ c main_v49
    = transpose S128x128 [1, 0] (extractStridedSlice S128x128 ![0, 128] (m ((c : Thread nD τ).loc main_arg6)) slices_S128x256_S128x128_0_128) transposes_S128x128_S128x128_1_0 := by
  exact W5_v49 (F := Ideal) m ρ c
theorem V5_v50 : V5 m ρ c main_v50 = shapeCast S1x128 (m ((c : Thread nD τ).loc main_arg7)) shapeCasts_S128_S1x128 := by
  exact W5_v50 (F := Ideal) m ρ c

/-! ## Region 2's operands, over region 1's output array `V6 m ρ c main_v51` -/

theorem V7_v65 : V7 m ρ c main_v65 = Cert.Chain.agg (V6 m ρ c main_v51) (m ((c : Thread nD τ).loc main_arg1)) (m ((c : Thread nD τ).loc main_arg2)) (m ((c : Thread nD τ).loc main_arg3)) := by
  exact (W7_v65 (F := Ideal) m ρ c).trans (aggF_ideal _ _ _ _)
theorem V7_v51 : V7 m ρ c main_v51 = V6 m ρ c main_v51 := by
  exact W7_v51 (F := Ideal) m ρ c
theorem V7_v67 : V7 m ρ c main_v67
    = transpose S128x64 [1, 0] (extractStridedSlice S64x128 ![0, 0] (m ((c : Thread nD τ).loc main_arg8)) slices_S64x256_S64x128_0_0) transposes_S64x128_S128x64_1_0 := by
  exact W7_v67 (F := Ideal) m ρ c
theorem V7_v69 : V7 m ρ c main_v69
    = transpose S128x64 [1, 0] (extractStridedSlice S64x128 ![0, 128] (m ((c : Thread nD τ).loc main_arg8)) slices_S64x256_S64x128_0_128) transposes_S64x128_S128x64_1_0 := by
  exact W7_v69 (F := Ideal) m ρ c
theorem V7_v70 : V7 m ρ c main_v70 = shapeCast S1x64 (m ((c : Thread nD τ).loc main_arg9)) shapeCasts_S64_S1x64 := by
  exact W7_v70 (F := Ideal) m ρ c

end Cert.KernelIdeal.KHost

end
-- ==== Proof.KDense.lean ====
/-
  The kernel's operands of a dense layer are made on the host from the layer's weights and bias: the two halves of
  the N × 256 weight matrix, each sliced out and transposed to 128 × N, and the bias reshaped to a 1 × N row. Read at
  an index, the transposed first half at (k, j) is W[j, k], the transposed second half at (k, j) is W[j, 128 + k], and
  the row at (0, j) is b[j]; so the kernel's spelling of the layer (`Cert.Spec.dense`) on those operands is the
  layer on W and b as given (`Cert.Spec.layer`).
-/
import proofs.«169384_j87686052315764_1_alg».proof.Proof.Gen.KernelIdeal
import proofs.«169384_j87686052315764_1_alg».proof.Proof.Spec
import Idealize.ShloMosaic.Lib.Pipeline.Value

set_option maxRecDepth 16384

noncomputable section

namespace Cert.KernelIdeal.KDense

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Facts₀

/-! ## The three operands read at an index, 128 wide -/

/-- The transposed first half of the weights at (k, j) is W[j, k]. -/
theorem wa128_apply {α : Type} (W : S128x256.Idx → α) (k q : Fin 128) :
    transpose S128x128 [1, 0] (extractStridedSlice S128x128 ![0, 0] W slices_S128x256_S128x128_0_0)
        transposes_S128x128_S128x128_1_0 (ix2 k q)
      = W (ix2 q (Cert.Spec.lo k)) := by
  -- the transpose swaps the two coordinates …
  refine (transpose_apply _ _ _ (ix2 k q) (ix2 q k) (fun b => match b with | ⟨0, _⟩ => rfl | ⟨1, _⟩ => rfl)).trans ?_
  -- … and the slice at offsets (0, 0) reads the same coordinates of W
  exact extractStridedSlice_apply _ _ _ (ix2 q k) (ix2 q (Cert.Spec.lo k)) (fun a => match a with
    | ⟨0, _⟩ => by show q.val = 0 + q.val; omega
    | ⟨1, _⟩ => by show k.val = 0 + k.val; omega)

/-- The transposed second half of the weights at (k, j) is W[j, 128 + k]. -/
theorem wh128_apply {α : Type} (W : S128x256.Idx → α) (k q : Fin 128) :
    transpose S128x128 [1, 0] (extractStridedSlice S128x128 ![0, 128] W slices_S128x256_S128x128_0_128)
        transposes_S128x128_S128x128_1_0 (ix2 k q)
      = W (ix2 q (Cert.Spec.hi k)) := by
  refine (transpose_apply _ _ _ (ix2 k q) (ix2 q k) (fun b => match b with | ⟨0, _⟩ => rfl | ⟨1, _⟩ => rfl)).trans ?_
  -- the slice at offsets (0, 128) shifts the column by 128
  exact extractStridedSlice_apply _ _ _ (ix2 q k) (ix2 q (Cert.Spec.hi k)) (fun a => match a with
    | ⟨0, _⟩ => by show q.val = 0 + q.val; omega
    | ⟨1, _⟩ => by show 128 + k.val = 128 + k.val; rfl)

/-- The bias as a 1 × 128 row at (0, j) is b[j]: both sit at row-major position j. -/
theorem brow128_apply {α : Type} (b : S128.Idx → α) (q : Fin 128) :
    shapeCast S1x128 b shapeCasts_S128_S1x128 (ix2 (0 : Fin 1) q) = b (ix1 q) := by
  exact shapeCast_apply _ _ (ix2 (0 : Fin 1) q) (ix1 q) (by
    rw [Shape.rowMajor_val_one, Shape.rowMajor_val_two]
    show q.val = 0 * 128 + q.val; omega)

/-! ## The three operands read at an index, 64 wide -/

/-- The transposed first half of the weights at (k, j) is W[j, k]. -/
theorem wa64_apply {α : Type} (W : S64x256.Idx → α) (k : Fin 128) (q : Fin 64) :
    transpose S128x64 [1, 0] (extractStridedSlice S64x128 ![0, 0] W slices_S64x256_S64x128_0_0)
        transposes_S64x128_S128x64_1_0 (ix2 k q)
      = W (ix2 q (Cert.Spec.lo k)) := by
  refine (transpose_apply _ _ _ (ix2 k q) (ix2 q k) (fun b => match b with | ⟨0, _⟩ => rfl | ⟨1, _⟩ => rfl)).trans ?_
  exact extractStridedSlice_apply _ _ _ (ix2 q k) (ix2 q (Cert.Spec.lo k)) (fun a => match a with
    | ⟨0, _⟩ => by show q.val = 0 + q.val; omega
    | ⟨1, _⟩ => by show k.val = 0 + k.val; omega)

/-- The transposed second half of the weights at (k, j) is W[j, 128 + k]. -/
theorem wh64_apply {α : Type} (W : S64x256.Idx → α) (k : Fin 128) (q : Fin 64) :
    transpose S128x64 [1, 0] (extractStridedSlice S64x128 ![0, 128] W slices_S64x256_S64x128_0_128)
        transposes_S64x128_S128x64_1_0 (ix2 k q)
      = W (ix2 q (Cert.Spec.hi k)) := by
  refine (transpose_apply _ _ _ (ix2 k q) (ix2 q k) (fun b => match b with | ⟨0, _⟩ => rfl | ⟨1, _⟩ => rfl)).trans ?_
  exact extractStridedSlice_apply _ _ _ (ix2 q k) (ix2 q (Cert.Spec.hi k)) (fun a => match a with
    | ⟨0, _⟩ => by show q.val = 0 + q.val; omega
    | ⟨1, _⟩ => by show 128 + k.val = 128 + k.val; rfl)

/-- The bias as a 1 × 64 row at (0, j) is b[j]: both sit at row-major position j. -/
theorem brow64_apply {α : Type} (b : S64.Idx → α) (q : Fin 64) :
    shapeCast S1x64 b shapeCasts_S64_S1x64 (ix2 (0 : Fin 1) q) = b (ix1 q) := by
  exact shapeCast_apply _ _ (ix2 (0 : Fin 1) q) (ix1 q) (by
    rw [Shape.rowMajor_val_one, Shape.rowMajor_val_two]
    show q.val = 0 * 64 + q.val; omega)

/-- The 128-wide layers (layers 1 and 2). -/
theorem dense128 (a h : FVec Ideal S50000x128 .f32) (W : FVec Ideal S128x256 .f32) (b : FVec Ideal S128 .f32) :
    Cert.Spec.dense (N := 128) a h
        (transpose S128x128 [1, 0] (extractStridedSlice S128x128 ![0, 0] W slices_S128x256_S128x128_0_0) transposes_S128x128_S128x128_1_0)
        (transpose S128x128 [1, 0] (extractStridedSlice S128x128 ![0, 128] W slices_S128x256_S128x128_0_128) transposes_S128x128_S128x128_1_0)
        (shapeCast S1x128 b shapeCasts_S128_S1x128)
      = Cert.Spec.layer (N := 128) a h W b := by
  funext i
  -- one entry (p, q) of the 50000 × 128 result
  obtain ⟨p, q, rfl⟩ : ∃ (p : Fin 50000) (q : Fin 128), i = ix2 p q := ⟨i 0, i 1, eq_ix2 i⟩
  rw [Cert.Spec.dense_ix2, Cert.Spec.layer_ix2]
  unfold Cert.Spec.denseAt Cert.Spec.layerAt
  -- the three operands at the coordinates the sums and the bias term read them at
  simp only [brow128_apply]
  refine congrArg (fun x => max x _) ?_
  refine congrArg₂ (· + ·) (congrArg₂ (· + ·) (Finset.sum_congr rfl fun k _ => ?_) (Finset.sum_congr rfl fun k _ => ?_)) rfl
  · rw [wa128_apply W k q]
  · rw [wh128_apply W k q]

/-- The 64-wide layer (layer 3). -/
theorem dense64 (a h : FVec Ideal S50000x128 .f32) (W : FVec Ideal S64x256 .f32) (b : FVec Ideal S64 .f32) :
    Cert.Spec.dense (N := 64) a h
        (transpose S128x64 [1, 0] (extractStridedSlice S64x128 ![0, 0] W slices_S64x256_S64x128_0_0) transposes_S64x128_S128x64_1_0)
        (transpose S128x64 [1, 0] (extractStridedSlice S64x128 ![0, 128] W slices_S64x256_S64x128_0_128) transposes_S64x128_S128x64_1_0)
        (shapeCast S1x64 b shapeCasts_S64_S1x64)
      = Cert.Spec.layer (N := 64) a h W b := by
  funext i
  -- one entry (p, q) of the 50000 × 64 result
  obtain ⟨p, q, rfl⟩ : ∃ (p : Fin 50000) (q : Fin 64), i = ix2 p q := ⟨i 0, i 1, eq_ix2 i⟩
  rw [Cert.Spec.dense_ix2, Cert.Spec.layer_ix2]
  unfold Cert.Spec.denseAt Cert.Spec.layerAt
  simp only [brow64_apply]
  refine congrArg (fun x => max x _) ?_
  refine congrArg₂ (· + ·) (congrArg₂ (· + ·) (Finset.sum_congr rfl fun k _ => ?_) (Finset.sum_congr rfl fun k _ => ?_)) rfl
  · rw [wa64_apply W k q]
  · rw [wh64_apply W k q]

end Cert.KernelIdeal.KDense

end
-- ==== Proof.KValue.lean ====
/-
  The kernel's result array after the run is the network of the launch memory's arguments.

  The last boundary's contents at the result array are what region 2's write-backs leave: the dense layer of region
  2's operands; those are the aggregation of region 1's output, that output, and the third weights and bias; region
  1's output is the dense layer of its operands, and so on down to the input features. Each dense layer on the
  transposed halves of its weights is the layer on the weights as given, so the three regions compose to
  `Cert.Chain.net`.
-/
import proofs.«169384_j87686052315764_1_alg».proof.Proof.KReg0
import proofs.«169384_j87686052315764_1_alg».proof.Proof.KReg1
import proofs.«169384_j87686052315764_1_alg».proof.Proof.KReg2
import proofs.«169384_j87686052315764_1_alg».proof.Proof.KHost
import proofs.«169384_j87686052315764_1_alg».proof.Proof.KDense

set_option maxRecDepth 16384

noncomputable section

namespace Cert.KernelIdeal.KValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

/-- The result array at the last boundary is the network of the arguments. -/
theorem W8_v71 : W8 m ρ c (Proc.devRef .tc main_v71) = Cert.Chain.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  -- region 2's output: the dense layer of its operands, which are the aggregation of region 1's output, that
  -- output, and the third weights' transposed halves and bias row
  have a2 : W8 m ρ c (Proc.devRef .tc main_v71) = (dat2 (V7 m ρ) c).arrAt 5 cfg2.N := W8_arr m ρ c 5
  rw [a2, Cert.KernelIdeal.KReg2.final2 (V7 m ρ) c, Cert.KernelIdeal.KHost.V7_v65 m ρ c, Cert.KernelIdeal.KHost.V7_v51 m ρ c,
    Cert.KernelIdeal.KHost.V7_v67 m ρ c, Cert.KernelIdeal.KHost.V7_v69 m ρ c, Cert.KernelIdeal.KHost.V7_v70 m ρ c,
    Cert.KernelIdeal.KDense.dense64]
  -- region 1's output, the same one layer down
  have a1 : V6 m ρ c main_v51 = (dat1 (V5 m ρ) c).arrAt 5 cfg1.N := W6_arr m ρ c 5
  rw [a1, Cert.KernelIdeal.KReg1.final1 (V5 m ρ) c, Cert.KernelIdeal.KHost.V5_v45 m ρ c, Cert.KernelIdeal.KHost.V5_v31 m ρ c,
    Cert.KernelIdeal.KHost.V5_v47 m ρ c, Cert.KernelIdeal.KHost.V5_v49 m ρ c, Cert.KernelIdeal.KHost.V5_v50 m ρ c,
    Cert.KernelIdeal.KDense.dense128]
  -- region 0's output, on the input features
  have a0 : V4 m ρ c main_v31 = (dat0 (V3 m ρ) c).arrAt 5 cfg0.N := W4_arr m ρ c 5
  rw [a0, Cert.KernelIdeal.KReg0.final0 (V3 m ρ) c, Cert.KernelIdeal.KHost.V3_v25 m ρ c, Cert.KernelIdeal.KHost.V3_arg0 m ρ c,
    Cert.KernelIdeal.KHost.V3_v27 m ρ c, Cert.KernelIdeal.KHost.V3_v29 m ρ c, Cert.KernelIdeal.KHost.V3_v30 m ρ c,
    Cert.KernelIdeal.KDense.dense128]
  rfl

end Cert.KernelIdeal.KValue

end
-- ==== Proof.RefRun.lean ====
/-
  The reference program's run, read back stretch by stretch: every weakly fair execution of its @main terminates,
  nothing faulting, with the result array holding the last stage of its operations (`val_main_v74` of the argument
  arrays) and every argument array as launched. @main is a straight line of 98 host operations; the buffer contents
  after a stretch of them are a function of the contents before it, and each buffer an operation writes holds the
  operation's function of the buffers it reads, so stage after stage the contents at the stage's buffer are the
  stage's value.
-/
import proofs.«169384_j87686052315764_1_alg».proof.Proof.RefOpsP
import proofs.«169384_j87686052315764_1_alg».proof.Proof.RefReadP
import Idealize.ShloMosaic.Lib.StableHlo.Run

noncomputable section

namespace Cert.ReferenceIdeal.RunH

open Cert.ReferenceIdeal Cert.ReferenceIdeal.Gen Cert.ReferenceIdeal.OpsP Cert.ReferenceIdeal.ReadP
open Idealize.ShloMosaic Idealize.ShloMosaic.TcCoe Idealize.SL.Sem Idealize.ShloMosaic.StableHlo

variable {F : FTy → Type} [FloatOps F]

/-- The contents after two lines in a row are the second line's after the first's. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- The ten argument arrays. -/
abbrev argRefs : List (Ref sig .tc) :=
  [main_arg0, main_arg1, main_arg2, main_arg3, main_arg4, main_arg5, main_arg6, main_arg7, main_arg8, main_arg9]

/-! ## Stretch 1: the degrees and the inverse degrees -/

/-- Operations main_cst … main_v11. -/
abbrev s1 : List (HloOp τ sig (Elt F)) :=
  [ nullary main_cst (constant S_ .f32 0x3F800000#32),
    unary main_cst main_v0 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    unary main_arg3 main_v2 (broadcastInDim S1600000x1 ![0] bcast_S1600000_S1600000x1_0 : (⟨S1600000, .i32⟩ : BufTy).Contents (Elt F) → (⟨S1600000x1, .i32⟩ : BufTy).Contents (Elt F)),
    ternary main_v1 main_v2 main_v0 main_v3 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_1 (constant S_ .f32 0x00000000#32),
    unary main_cst_1 main_v4 (broadcastInDim S50000 ![] bcast_S_S50000 : (⟨S_, .f32⟩ : BufTy).Contents (Elt F) → (⟨S50000, .f32⟩ : BufTy).Contents (Elt F)),
    binary main_v3 main_v4 main_v5 (cmpf (F := F) .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v6 (broadcastInDim S50000 ![] bcast_S_S50000 : (⟨S_, .f32⟩ : BufTy).Contents (Elt F) → (⟨S50000, .f32⟩ : BufTy).Contents (Elt F)),
    binary main_v3 main_v6 main_v7 (maximumf : (⟨S50000, .f32⟩ : BufTy).Contents (Elt F) → (⟨S50000, .f32⟩ : BufTy).Contents (Elt F) → (⟨S50000, .f32⟩ : BufTy).Contents (Elt F)),
    nullary main_cst_3 (constant S_ .f32 0x3F800000#32),
    unary main_cst_3 main_v8 (broadcastInDim S50000 ![] bcast_S_S50000 : (⟨S_, .f32⟩ : BufTy).Contents (Elt F) → (⟨S50000, .f32⟩ : BufTy).Contents (Elt F)),
    binary main_v8 main_v7 main_v9 (Host.divf : (⟨S50000, .f32⟩ : BufTy).Contents (Elt F) → (⟨S50000, .f32⟩ : BufTy).Contents (Elt F) → (⟨S50000, .f32⟩ : BufTy).Contents (Elt F)),
    nullary main_cst_4 (constant S_ .f32 0x00000000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v5) (TRef.of (T := ⟨S50000, .f32⟩) main_v9) (TRef.of (T := ⟨S50000, .f32⟩) main_call0_v1) (TRef.of (T := ⟨S50000, .f32⟩) main_v10) select,
    unary main_v10 main_v11 (broadcastInDim S50000x1 ![0] bcast_S50000_S50000x1_0 : (⟨S50000, .f32⟩ : BufTy).Contents (Elt F) → (⟨S50000x1, .f32⟩ : BufTy).Contents (Elt F)) ]
/-- The buffers stretch 1 writes. -/
abbrev s1_W : List (Ref sig .tc) := [main_cst, main_v0, main_cst_0, main_v1, main_v2, main_v3, main_cst_1, main_v4, main_v5, main_cst_2, main_v6, main_v7, main_cst_3, main_v8, main_v9, main_cst_4, main_call0_v0, main_call0_v1, main_v10, main_v11]
theorem s1_writes : (s1 : List (HloOp τ sig (Elt F))).Forall fun op => op.writes ⊆ (s1_W.map (Proc.devRef (τ := τ) .tc)).toFinset := by
  simp only [List.Forall]
  repeat' apply And.intro
  all_goals (simp only [nullary_writes, unary_writes, binary_writes, ternary_writes, Finset.singleton_subset_iff, List.mem_toFinset]; exact List.mem_map_of_mem (by decide))
/-- A buffer stretch 1 does not write keeps its contents through it. -/
theorem s1_keep (V : Valuation τ sig (Elt F)) (r : Ref sig .tc) (h : r ∉ s1_W) :
    after s1 V (Proc.devRef .tc r) = V (Proc.devRef .tc r) :=
  after_of_writes_sub s1 V s1_writes h

/-- After stretch 1 the inverse-degree column holds its stage. -/
theorem s1_v11 (V : Valuation τ sig (Elt F)) (x3 : (⟨S1600000, .i32⟩ : BufTy).Contents (Elt F)) (h3 : V (Proc.devRef .tc main_arg3) = x3) :
    after s1 V (Proc.devRef .tc main_v11) = val_main_v11 (F := F) x3 := by
  after_results_simp
  simp only [TRef.ofBuf, TRef.toBuf, cast_eq, h3]
  rfl

/-! ## Stretch 2: the first aggregation -/

/-- Operations main_c … main_v25. -/
abbrev s2 : List (HloOp τ sig (Elt F)) :=
  [ nullary main_c (constantI S_ 32 0#32),
    unary main_c main_v12 (broadcastInDim S1600000 ![] bcast_S_S1600000 : (⟨S_, .i32⟩ : BufTy).Contents (Elt F) → (⟨S1600000, .i32⟩ : BufTy).Contents (Elt F)),
    binary main_arg2 main_v12 main_v13 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 50000#32),
    unary main_c_5 main_v14 (broadcastInDim S1600000 ![] bcast_S_S1600000 : (⟨S_, .i32⟩ : BufTy).Contents (Elt F) → (⟨S1600000, .i32⟩ : BufTy).Contents (Elt F)),
    binary main_arg2 main_v14 main_v15 (addi : (⟨S1600000, .i32⟩ : BufTy).Contents (Elt F) → (⟨S1600000, .i32⟩ : BufTy).Contents (Elt F) → (⟨S1600000, .i32⟩ : BufTy).Contents (Elt F)),
    ternary main_v13 main_v15 main_arg2 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v16 main_v17 (broadcastInDim S1600000x1 ![0] bcast_S1600000_S1600000x1_0 : (⟨S1600000, .i32⟩ : BufTy).Contents (Elt F) → (⟨S1600000x1, .i32⟩ : BufTy).Contents (Elt F)),
    binary main_arg0 main_v17 main_v18 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    unary main_arg1 main_v19 (broadcastInDim S1600000x128 ![0, 1] bcast_S1600000x1_S1600000x128_0_1 : (⟨S1600000x1, .f32⟩ : BufTy).Contents (Elt F) → (⟨S1600000x128, .f32⟩ : BufTy).Contents (Elt F)),
    binary main_v18 main_v19 main_v20 (mulf : (⟨S1600000x128, .f32⟩ : BufTy).Contents (Elt F) → (⟨S1600000x128, .f32⟩ : BufTy).Contents (Elt F) → (⟨S1600000x128, .f32⟩ : BufTy).Contents (Elt F)),
    nullary main_cst_6 (constant S_ .f32 0x00000000#32),
    unary main_cst_6 main_v21 (broadcastInDim S50000x128 ![] bcast_S_S50000x128 : (⟨S_, .f32⟩ : BufTy).Contents (Elt F) → (⟨S50000x128, .f32⟩ : BufTy).Contents (Elt F)),
    unary main_arg3 main_v22 (broadcastInDim S1600000x1 ![0] bcast_S1600000_S1600000x1_0 : (⟨S1600000, .i32⟩ : BufTy).Contents (Elt F) → (⟨S1600000x1, .i32⟩ : BufTy).Contents (Elt F)),
    ternary main_v21 main_v22 main_v20 main_v23 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    unary main_v11 main_v24 (broadcastInDim S50000x128 ![0, 1] bcast_S50000x1_S50000x128_0_1 : (⟨S50000x1, .f32⟩ : BufTy).Contents (Elt F) → (⟨S50000x128, .f32⟩ : BufTy).Contents (Elt F)),
    binary main_v23 main_v24 main_v25 (mulf : (⟨S50000x128, .f32⟩ : BufTy).Contents (Elt F) → (⟨S50000x128, .f32⟩ : BufTy).Contents (Elt F) → (⟨S50000x128, .f32⟩ : BufTy).Contents (Elt F)) ]
/-- The buffers stretch 2 writes. -/
abbrev s2_W : List (Ref sig .tc) := [main_c, main_v12, main_v13, main_c_5, main_v14, main_v15, main_v16, main_v17, main_v18, main_v19, main_v20, main_cst_6, main_v21, main_v22, main_v23, main_v24, main_v25]
theorem s2_writes : (s2 : List (HloOp τ sig (Elt F))).Forall fun op => op.writes ⊆ (s2_W.map (Proc.devRef (τ := τ) .tc)).toFinset := by
  simp only [List.Forall]
  repeat' apply And.intro
  all_goals (simp only [nullary_writes, unary_writes, binary_writes, ternary_writes, Finset.singleton_subset_iff, List.mem_toFinset]; exact List.mem_map_of_mem (by decide))
/-- A buffer stretch 2 does not write keeps its contents through it. -/
theorem s2_keep (V : Valuation τ sig (Elt F)) (r : Ref sig .tc) (h : r ∉ s2_W) :
    after s2 V (Proc.devRef .tc r) = V (Proc.devRef .tc r) :=
  after_of_writes_sub s2 V s2_writes h

/-- After stretch 2 the first aggregation holds its stage, given the arguments and the inverse-degree column before it. -/
theorem s2_v25 (V : Valuation τ sig (Elt F)) (x0 : (⟨S50000x128, .f32⟩ : BufTy).Contents (Elt F)) (x1 : (⟨S1600000x1, .f32⟩ : BufTy).Contents (Elt F)) (x2 : (⟨S1600000, .i32⟩ : BufTy).Contents (Elt F)) (x3 : (⟨S1600000, .i32⟩ : BufTy).Contents (Elt F))
    (h0 : V (Proc.devRef .tc main_arg0) = x0) (h1 : V (Proc.devRef .tc main_arg1) = x1) (h2 : V (Proc.devRef .tc main_arg2) = x2) (h3 : V (Proc.devRef .tc main_arg3) = x3)
    (h11 : V (Proc.devRef .tc main_v11) = val_main_v11 (F := F) x3) :
    after s2 V (Proc.devRef .tc main_v25) = val_main_v25 (F := F) x0 x1 x2 x3 := by
  after_results_simp
  simp only [h0, h1, h2, h3, h11]
  rfl

/-! ## Stretch 3: the first layer's dense part -/

/-- Operations main_v26 … main_v32. -/
abbrev s3 : List (HloOp τ sig (Elt F)) :=
  [ binary main_v25 main_arg0 main_v26 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg4 main_v27 ((transpose S256x128 [1, 0] · transposes_S128x256_S256x128_1_0) : (⟨S128x256, .f32⟩ : BufTy).Contents (Elt F) → (⟨S256x128, .f32⟩ : BufTy).Contents (Elt F)),
    binary main_v26 main_v27 main_v28 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg5 main_v29 (broadcastInDim S1x128 ![1] bcast_S128_S1x128_1 : (⟨S128, .f32⟩ : BufTy).Contents (Elt F) → (⟨S1x128, .f32⟩ : BufTy).Contents (Elt F)),
    unary main_v29 main_v30 (broadcastInDim S50000x128 ![0, 1] bcast_S1x128_S50000x128_0_1 : (⟨S1x128, .f32⟩ : BufTy).Contents (Elt F) → (⟨S50000x128, .f32⟩ : BufTy).Contents (Elt F)),
    binary main_v28 main_v30 main_v31 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v31) (TRef.of (T := ⟨S50000x128, .f32⟩) main_call1_v0) (TRef.of (T := ⟨S50000x128, .f32⟩) main_v32) maximumf ]
/-- The buffers stretch 3 writes. -/
abbrev s3_W : List (Ref sig .tc) := [main_v26, main_v27, main_v28, main_v29, main_v30, main_v31, main_call1_cst, main_call1_v0, main_v32]
theorem s3_writes : (s3 : List (HloOp τ sig (Elt F))).Forall fun op => op.writes ⊆ (s3_W.map (Proc.devRef (τ := τ) .tc)).toFinset := by
  simp only [List.Forall]
  repeat' apply And.intro
  all_goals (simp only [nullary_writes, unary_writes, binary_writes, ternary_writes, Finset.singleton_subset_iff, List.mem_toFinset]; exact List.mem_map_of_mem (by decide))
/-- A buffer stretch 3 does not write keeps its contents through it. -/
theorem s3_keep (V : Valuation τ sig (Elt F)) (r : Ref sig .tc) (h : r ∉ s3_W) :
    after s3 V (Proc.devRef .tc r) = V (Proc.devRef .tc r) :=
  after_of_writes_sub s3 V s3_writes h

/-- After stretch 3 the first layer's output holds its stage, given the first aggregation before it. -/
theorem s3_v32 (V : Valuation τ sig (Elt F)) (x0 : (⟨S50000x128, .f32⟩ : BufTy).Contents (Elt F)) (x1 : (⟨S1600000x1, .f32⟩ : BufTy).Contents (Elt F)) (x2 : (⟨S1600000, .i32⟩ : BufTy).Contents (Elt F)) (x3 : (⟨S1600000, .i32⟩ : BufTy).Contents (Elt F)) (x4 : (⟨S128x256, .f32⟩ : BufTy).Contents (Elt F)) (x5 : (⟨S128, .f32⟩ : BufTy).Contents (Elt F))
    (h0 : V (Proc.devRef .tc main_arg0) = x0) (h4 : V (Proc.devRef .tc main_arg4) = x4) (h5 : V (Proc.devRef .tc main_arg5) = x5)
    (h25 : V (Proc.devRef .tc main_v25) = val_main_v25 (F := F) x0 x1 x2 x3) :
    after s3 V (Proc.devRef .tc main_v32) = val_main_v32 (F := F) x0 x1 x2 x3 x4 x5 := by
  after_results_simp
  simp only [TRef.ofBuf, TRef.toBuf, cast_eq, h4, h5]
  -- the two operands of the concatenate
  rw [h25, h0]
  rfl

/-! ## Stretch 4: the second aggregation -/

/-- Operations main_c_7 … main_v46. -/
abbrev s4 : List (HloOp τ sig (Elt F)) :=
  [ nullary main_c_7 (constantI S_ 32 0#32),
    unary main_c_7 main_v33 (broadcastInDim S1600000 ![] bcast_S_S1600000 : (⟨S_, .i32⟩ : BufTy).Contents (Elt F) → (⟨S1600000, .i32⟩ : BufTy).Contents (Elt F)),
    binary main_arg2 main_v33 main_v34 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 50000#32),
    unary main_c_8 main_v35 (broadcastInDim S1600000 ![] bcast_S_S1600000 : (⟨S_, .i32⟩ : BufTy).Contents (Elt F) → (⟨S1600000, .i32⟩ : BufTy).Contents (Elt F)),
    binary main_arg2 main_v35 main_v36 (addi : (⟨S1600000, .i32⟩ : BufTy).Contents (Elt F) → (⟨S1600000, .i32⟩ : BufTy).Contents (Elt F) → (⟨S1600000, .i32⟩ : BufTy).Contents (Elt F)),
    ternary main_v34 main_v36 main_arg2 main_v37 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v37 main_v38 (broadcastInDim S1600000x1 ![0] bcast_S1600000_S1600000x1_0 : (⟨S1600000, .i32⟩ : BufTy).Contents (Elt F) → (⟨S1600000x1, .i32⟩ : BufTy).Contents (Elt F)),
    binary main_v32 main_v38 main_v39 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    unary main_arg1 main_v40 (broadcastInDim S1600000x128 ![0, 1] bcast_S1600000x1_S1600000x128_0_1 : (⟨S1600000x1, .f32⟩ : BufTy).Contents (Elt F) → (⟨S1600000x128, .f32⟩ : BufTy).Contents (Elt F)),
    binary main_v39 main_v40 main_v41 (mulf : (⟨S1600000x128, .f32⟩ : BufTy).Contents (Elt F) → (⟨S1600000x128, .f32⟩ : BufTy).Contents (Elt F) → (⟨S1600000x128, .f32⟩ : BufTy).Contents (Elt F)),
    nullary main_cst_9 (constant S_ .f32 0x00000000#32),
    unary main_cst_9 main_v42 (broadcastInDim S50000x128 ![] bcast_S_S50000x128 : (⟨S_, .f32⟩ : BufTy).Contents (Elt F) → (⟨S50000x128, .f32⟩ : BufTy).Contents (Elt F)),
    unary main_arg3 main_v43 (broadcastInDim S1600000x1 ![0] bcast_S1600000_S1600000x1_0 : (⟨S1600000, .i32⟩ : BufTy).Contents (Elt F) → (⟨S1600000x1, .i32⟩ : BufTy).Contents (Elt F)),
    ternary main_v42 main_v43 main_v41 main_v44 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    unary main_v11 main_v45 (broadcastInDim S50000x128 ![0, 1] bcast_S50000x1_S50000x128_0_1 : (⟨S50000x1, .f32⟩ : BufTy).Contents (Elt F) → (⟨S50000x128, .f32⟩ : BufTy).Contents (Elt F)),
    binary main_v44 main_v45 main_v46 (mulf : (⟨S50000x128, .f32⟩ : BufTy).Contents (Elt F) → (⟨S50000x128, .f32⟩ : BufTy).Contents (Elt F) → (⟨S50000x128, .f32⟩ : BufTy).Contents (Elt F)) ]
/-- The buffers stretch 4 writes. -/
abbrev s4_W : List (Ref sig .tc) := [main_c_7, main_v33, main_v34, main_c_8, main_v35, main_v36, main_v37, main_v38, main_v39, main_v40, main_v41, main_cst_9, main_v42, main_v43, main_v44, main_v45, main_v46]
theorem s4_writes : (s4 : List (HloOp τ sig (Elt F))).Forall fun op => op.writes ⊆ (s4_W.map (Proc.devRef (τ := τ) .tc)).toFinset := by
  simp only [List.Forall]
  repeat' apply And.intro
  all_goals (simp only [nullary_writes, unary_writes, binary_writes, ternary_writes, Finset.singleton_subset_iff, List.mem_toFinset]; exact List.mem_map_of_mem (by decide))
/-- A buffer stretch 4 does not write keeps its contents through it. -/
theorem s4_keep (V : Valuation τ sig (Elt F)) (r : Ref sig .tc) (h : r ∉ s4_W) :
    after s4 V (Proc.devRef .tc r) = V (Proc.devRef .tc r) :=
  after_of_writes_sub s4 V s4_writes h

/-- After stretch 4 the second aggregation holds its stage, given the first layer's output before it. -/
theorem s4_v46 (V : Valuation τ sig (Elt F)) (x0 : (⟨S50000x128, .f32⟩ : BufTy).Contents (Elt F)) (x1 : (⟨S1600000x1, .f32⟩ : BufTy).Contents (Elt F)) (x2 : (⟨S1600000, .i32⟩ : BufTy).Contents (Elt F)) (x3 : (⟨S1600000, .i32⟩ : BufTy).Contents (Elt F)) (x4 : (⟨S128x256, .f32⟩ : BufTy).Contents (Elt F)) (x5 : (⟨S128, .f32⟩ : BufTy).Contents (Elt F))
    (h1 : V (Proc.devRef .tc main_arg1) = x1) (h2 : V (Proc.devRef .tc main_arg2) = x2) (h3 : V (Proc.devRef .tc main_arg3) = x3)
    (h11 : V (Proc.devRef .tc main_v11) = val_main_v11 (F := F) x3)
    (h32 : V (Proc.devRef .tc main_v32) = val_main_v32 (F := F) x0 x1 x2 x3 x4 x5) :
    after s4 V (Proc.devRef .tc main_v46) = val_main_v46 (F := F) x0 x1 x2 x3 x4 x5 := by
  after_results_simp
  simp only [h1, h2, h3, h11, h32]
  rfl

/-! ## Stretch 5: the second layer's dense part -/

/-- Operations main_v47 … main_v53. -/
abbrev s5 : List (HloOp τ sig (Elt F)) :=
  [ binary main_v46 main_v32 main_v47 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg6 main_v48 ((transpose S256x128 [1, 0] · transposes_S128x256_S256x128_1_0) : (⟨S128x256, .f32⟩ : BufTy).Contents (Elt F) → (⟨S256x128, .f32⟩ : BufTy).Contents (Elt F)),
    binary main_v47 main_v48 main_v49 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg7 main_v50 (broadcastInDim S1x128 ![1] bcast_S128_S1x128_1 : (⟨S128, .f32⟩ : BufTy).Contents (Elt F) → (⟨S1x128, .f32⟩ : BufTy).Contents (Elt F)),
    unary main_v50 main_v51 (broadcastInDim S50000x128 ![0, 1] bcast_S1x128_S50000x128_0_1 : (⟨S1x128, .f32⟩ : BufTy).Contents (Elt F) → (⟨S50000x128, .f32⟩ : BufTy).Contents (Elt F)),
    binary main_v49 main_v51 main_v52 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v52) (TRef.of (T := ⟨S50000x128, .f32⟩) main_call2_v0) (TRef.of (T := ⟨S50000x128, .f32⟩) main_v53) maximumf ]
/-- The buffers stretch 5 writes. -/
abbrev s5_W : List (Ref sig .tc) := [main_v47, main_v48, main_v49, main_v50, main_v51, main_v52, main_call2_cst, main_call2_v0, main_v53]
theorem s5_writes : (s5 : List (HloOp τ sig (Elt F))).Forall fun op => op.writes ⊆ (s5_W.map (Proc.devRef (τ := τ) .tc)).toFinset := by
  simp only [List.Forall]
  repeat' apply And.intro
  all_goals (simp only [nullary_writes, unary_writes, binary_writes, ternary_writes, Finset.singleton_subset_iff, List.mem_toFinset]; exact List.mem_map_of_mem (by decide))
/-- A buffer stretch 5 does not write keeps its contents through it. -/
theorem s5_keep (V : Valuation τ sig (Elt F)) (r : Ref sig .tc) (h : r ∉ s5_W) :
    after s5 V (Proc.devRef .tc r) = V (Proc.devRef .tc r) :=
  after_of_writes_sub s5 V s5_writes h

/-- After stretch 5 the second layer's output holds its stage, given the second aggregation and the first layer's output. -/
theorem s5_v53 (V : Valuation τ sig (Elt F)) (x0 : (⟨S50000x128, .f32⟩ : BufTy).Contents (Elt F)) (x1 : (⟨S1600000x1, .f32⟩ : BufTy).Contents (Elt F)) (x2 : (⟨S1600000, .i32⟩ : BufTy).Contents (Elt F)) (x3 : (⟨S1600000, .i32⟩ : BufTy).Contents (Elt F)) (x4 : (⟨S128x256, .f32⟩ : BufTy).Contents (Elt F)) (x5 : (⟨S128, .f32⟩ : BufTy).Contents (Elt F)) (x6 : (⟨S128x256, .f32⟩ : BufTy).Contents (Elt F)) (x7 : (⟨S128, .f32⟩ : BufTy).Contents (Elt F))
    (h6 : V (Proc.devRef .tc main_arg6) = x6) (h7 : V (Proc.devRef .tc main_arg7) = x7)
    (h32 : V (Proc.devRef .tc main_v32) = val_main_v32 (F := F) x0 x1 x2 x3 x4 x5)
    (h46 : V (Proc.devRef .tc main_v46) = val_main_v46 (F := F) x0 x1 x2 x3 x4 x5) :
    after s5 V (Proc.devRef .tc main_v53) = val_main_v53 (F := F) x0 x1 x2 x3 x4 x5 x6 x7 := by
  after_results_simp
  simp only [TRef.ofBuf, TRef.toBuf, cast_eq, h6, h7]
  -- the two operands of the concatenate
  rw [h46, h32]
  rfl

/-! ## Stretch 6: the third aggregation -/

/-- Operations main_c_10 … main_v67. -/
abbrev s6 : List (HloOp τ sig (Elt F)) :=
  [ nullary main_c_10 (constantI S_ 32 0#32),
    unary main_c_10 main_v54 (broadcastInDim S1600000 ![] bcast_S_S1600000 : (⟨S_, .i32⟩ : BufTy).Contents (Elt F) → (⟨S1600000, .i32⟩ : BufTy).Contents (Elt F)),
    binary main_arg2 main_v54 main_v55 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 50000#32),
    unary main_c_11 main_v56 (broadcastInDim S1600000 ![] bcast_S_S1600000 : (⟨S_, .i32⟩ : BufTy).Contents (Elt F) → (⟨S1600000, .i32⟩ : BufTy).Contents (Elt F)),
    binary main_arg2 main_v56 main_v57 (addi : (⟨S1600000, .i32⟩ : BufTy).Contents (Elt F) → (⟨S1600000, .i32⟩ : BufTy).Contents (Elt F) → (⟨S1600000, .i32⟩ : BufTy).Contents (Elt F)),
    ternary main_v55 main_v57 main_arg2 main_v58 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v58 main_v59 (broadcastInDim S1600000x1 ![0] bcast_S1600000_S1600000x1_0 : (⟨S1600000, .i32⟩ : BufTy).Contents (Elt F) → (⟨S1600000x1, .i32⟩ : BufTy).Contents (Elt F)),
    binary main_v53 main_v59 main_v60 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    unary main_arg1 main_v61 (broadcastInDim S1600000x128 ![0, 1] bcast_S1600000x1_S1600000x128_0_1 : (⟨S1600000x1, .f32⟩ : BufTy).Contents (Elt F) → (⟨S1600000x128, .f32⟩ : BufTy).Contents (Elt F)),
    binary main_v60 main_v61 main_v62 (mulf : (⟨S1600000x128, .f32⟩ : BufTy).Contents (Elt F) → (⟨S1600000x128, .f32⟩ : BufTy).Contents (Elt F) → (⟨S1600000x128, .f32⟩ : BufTy).Contents (Elt F)),
    nullary main_cst_12 (constant S_ .f32 0x00000000#32),
    unary main_cst_12 main_v63 (broadcastInDim S50000x128 ![] bcast_S_S50000x128 : (⟨S_, .f32⟩ : BufTy).Contents (Elt F) → (⟨S50000x128, .f32⟩ : BufTy).Contents (Elt F)),
    unary main_arg3 main_v64 (broadcastInDim S1600000x1 ![0] bcast_S1600000_S1600000x1_0 : (⟨S1600000, .i32⟩ : BufTy).Contents (Elt F) → (⟨S1600000x1, .i32⟩ : BufTy).Contents (Elt F)),
    ternary main_v63 main_v64 main_v62 main_v65 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    unary main_v11 main_v66 (broadcastInDim S50000x128 ![0, 1] bcast_S50000x1_S50000x128_0_1 : (⟨S50000x1, .f32⟩ : BufTy).Contents (Elt F) → (⟨S50000x128, .f32⟩ : BufTy).Contents (Elt F)),
    binary main_v65 main_v66 main_v67 (mulf : (⟨S50000x128, .f32⟩ : BufTy).Contents (Elt F) → (⟨S50000x128, .f32⟩ : BufTy).Contents (Elt F) → (⟨S50000x128, .f32⟩ : BufTy).Contents (Elt F)) ]
/-- The buffers stretch 6 writes. -/
abbrev s6_W : List (Ref sig .tc) := [main_c_10, main_v54, main_v55, main_c_11, main_v56, main_v57, main_v58, main_v59, main_v60, main_v61, main_v62, main_cst_12, main_v63, main_v64, main_v65, main_v66, main_v67]
theorem s6_writes : (s6 : List (HloOp τ sig (Elt F))).Forall fun op => op.writes ⊆ (s6_W.map (Proc.devRef (τ := τ) .tc)).toFinset := by
  simp only [List.Forall]
  repeat' apply And.intro
  all_goals (simp only [nullary_writes, unary_writes, binary_writes, ternary_writes, Finset.singleton_subset_iff, List.mem_toFinset]; exact List.mem_map_of_mem (by decide))
/-- A buffer stretch 6 does not write keeps its contents through it. -/
theorem s6_keep (V : Valuation τ sig (Elt F)) (r : Ref sig .tc) (h : r ∉ s6_W) :
    after s6 V (Proc.devRef .tc r) = V (Proc.devRef .tc r) :=
  after_of_writes_sub s6 V s6_writes h

/-- After stretch 6 the third aggregation holds its stage, given the second layer's output before it. -/
theorem s6_v67 (V : Valuation τ sig (Elt F)) (x0 : (⟨S50000x128, .f32⟩ : BufTy).Contents (Elt F)) (x1 : (⟨S1600000x1, .f32⟩ : BufTy).Contents (Elt F)) (x2 : (⟨S1600000, .i32⟩ : BufTy).Contents (Elt F)) (x3 : (⟨S1600000, .i32⟩ : BufTy).Contents (Elt F)) (x4 : (⟨S128x256, .f32⟩ : BufTy).Contents (Elt F)) (x5 : (⟨S128, .f32⟩ : BufTy).Contents (Elt F)) (x6 : (⟨S128x256, .f32⟩ : BufTy).Contents (Elt F)) (x7 : (⟨S128, .f32⟩ : BufTy).Contents (Elt F))
    (h1 : V (Proc.devRef .tc main_arg1) = x1) (h2 : V (Proc.devRef .tc main_arg2) = x2) (h3 : V (Proc.devRef .tc main_arg3) = x3)
    (h11 : V (Proc.devRef .tc main_v11) = val_main_v11 (F := F) x3)
    (h53 : V (Proc.devRef .tc main_v53) = val_main_v53 (F := F) x0 x1 x2 x3 x4 x5 x6 x7) :
    after s6 V (Proc.devRef .tc main_v67) = val_main_v67 (F := F) x0 x1 x2 x3 x4 x5 x6 x7 := by
  after_results_simp
  simp only [h1, h2, h3, h11, h53]
  rfl

/-! ## Stretch 7: the third layer's dense part -/

/-- Operations main_v68 … main_v74. -/
abbrev s7 : List (HloOp τ sig (Elt F)) :=
  [ binary main_v67 main_v53 main_v68 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg8 main_v69 ((transpose S256x64 [1, 0] · transposes_S64x256_S256x64_1_0) : (⟨S64x256, .f32⟩ : BufTy).Contents (Elt F) → (⟨S256x64, .f32⟩ : BufTy).Contents (Elt F)),
    binary main_v68 main_v69 main_v70 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    unary main_arg9 main_v71 (broadcastInDim S1x64 ![1] bcast_S64_S1x64_1 : (⟨S64, .f32⟩ : BufTy).Contents (Elt F) → (⟨S1x64, .f32⟩ : BufTy).Contents (Elt F)),
    unary main_v71 main_v72 (broadcastInDim S50000x64 ![0, 1] bcast_S1x64_S50000x64_0_1 : (⟨S1x64, .f32⟩ : BufTy).Contents (Elt F) → (⟨S50000x64, .f32⟩ : BufTy).Contents (Elt F)),
    binary main_v70 main_v72 main_v73 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x64, .f32⟩) main_call3_v0) (broadcastInDim S50000x64 ![] bcast_S_S50000x64),
    TRef.binary (TRef.of (T := ⟨S50000x64, .f32⟩) main_v73) (TRef.of (T := ⟨S50000x64, .f32⟩) main_call3_v0) (TRef.of (T := ⟨S50000x64, .f32⟩) main_v74) maximumf ]
/-- The buffers stretch 7 writes. -/
abbrev s7_W : List (Ref sig .tc) := [main_v68, main_v69, main_v70, main_v71, main_v72, main_v73, main_call3_cst, main_call3_v0, main_v74]
theorem s7_writes : (s7 : List (HloOp τ sig (Elt F))).Forall fun op => op.writes ⊆ (s7_W.map (Proc.devRef (τ := τ) .tc)).toFinset := by
  simp only [List.Forall]
  repeat' apply And.intro
  all_goals (simp only [nullary_writes, unary_writes, binary_writes, ternary_writes, Finset.singleton_subset_iff, List.mem_toFinset]; exact List.mem_map_of_mem (by decide))
/-- A buffer stretch 7 does not write keeps its contents through it. -/
theorem s7_keep (V : Valuation τ sig (Elt F)) (r : Ref sig .tc) (h : r ∉ s7_W) :
    after s7 V (Proc.devRef .tc r) = V (Proc.devRef .tc r) :=
  after_of_writes_sub s7 V s7_writes h

/-- After stretch 7 the result holds the last stage, given the third aggregation and the second layer's output. -/
theorem s7_v74 (V : Valuation τ sig (Elt F)) (x0 : (⟨S50000x128, .f32⟩ : BufTy).Contents (Elt F)) (x1 : (⟨S1600000x1, .f32⟩ : BufTy).Contents (Elt F)) (x2 : (⟨S1600000, .i32⟩ : BufTy).Contents (Elt F)) (x3 : (⟨S1600000, .i32⟩ : BufTy).Contents (Elt F)) (x4 : (⟨S128x256, .f32⟩ : BufTy).Contents (Elt F)) (x5 : (⟨S128, .f32⟩ : BufTy).Contents (Elt F)) (x6 : (⟨S128x256, .f32⟩ : BufTy).Contents (Elt F)) (x7 : (⟨S128, .f32⟩ : BufTy).Contents (Elt F)) (x8 : (⟨S64x256, .f32⟩ : BufTy).Contents (Elt F)) (x9 : (⟨S64, .f32⟩ : BufTy).Contents (Elt F))
    (h8 : V (Proc.devRef .tc main_arg8) = x8) (h9 : V (Proc.devRef .tc main_arg9) = x9)
    (h53 : V (Proc.devRef .tc main_v53) = val_main_v53 (F := F) x0 x1 x2 x3 x4 x5 x6 x7)
    (h67 : V (Proc.devRef .tc main_v67) = val_main_v67 (F := F) x0 x1 x2 x3 x4 x5 x6 x7) :
    after s7 V (Proc.devRef .tc main_v74) = val_main_v74 (F := F) x0 x1 x2 x3 x4 x5 x6 x7 x8 x9 := by
  after_results_simp
  simp only [TRef.ofBuf, TRef.toBuf, cast_eq, h8, h9]
  -- the two operands of the concatenate
  rw [h67, h53]
  rfl

/-! ## All 98 operations -/

/-- @main's operations are the seven stretches in a row. -/
theorem ops_eq : (ops : List (HloOp τ sig (Elt F))) = s1 ++ (s2 ++ (s3 ++ (s4 ++ (s5 ++ (s6 ++ s7))))) := rfl

/-- No stretch writes an argument array. -/
theorem args_not_written : ∀ r ∈ argRefs,
    r ∉ s1_W ∧ r ∉ s2_W ∧ r ∉ s3_W ∧ r ∉ s4_W ∧ r ∉ s5_W ∧ r ∉ s6_W ∧ r ∉ s7_W := by decide

/-- Every argument array is as it was after all the operations. -/
theorem ops_arg (V : Valuation τ sig (Elt F)) (r : Ref sig .tc) (hr : r ∈ argRefs) :
    after ops V (Proc.devRef .tc r) = V (Proc.devRef .tc r) := by
  obtain ⟨n1, n2, n3, n4, n5, n6, n7⟩ := args_not_written r hr
  rw [ops_eq]
  simp only [after_app]
  rw [s7_keep _ r n7, s6_keep _ r n6, s5_keep _ r n5, s4_keep _ r n4, s3_keep _ r n3, s2_keep _ r n2, s1_keep _ r n1]

/-- After all the operations the result array holds the last stage of the argument arrays. Each stretch's stage holds
    from ANY contents that have the right values at the few buffers the stretch reads, so all that crosses a cut is
    the values at the buffers later stretches read: the arguments (no stretch writes one), the inverse-degree column
    and the layer outputs (kept by every stretch that does not write them). -/
theorem ops_v74 (V : Valuation τ sig (Elt F)) :
    after ops V (Proc.devRef .tc main_v74) = val_main_v74 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  have n := args_not_written
  rw [ops_eq]
  simp only [after_app]
  -- after stretch 1
  have a1 : ∀ r ∈ argRefs, after s1 V (Proc.devRef .tc r) = V (Proc.devRef .tc r) := fun r hr => s1_keep V r (n r hr).1
  have e11 : after s1 V (Proc.devRef .tc main_v11) = val_main_v11 (F := F) (V (Proc.devRef .tc main_arg3)) := s1_v11 V _ rfl
  generalize after s1 V = W1 at a1 e11 ⊢
  -- after stretch 2
  have a2 : ∀ r ∈ argRefs, after s2 W1 (Proc.devRef .tc r) = V (Proc.devRef .tc r) :=
    fun r hr => (s2_keep W1 r (n r hr).2.1).trans (a1 r hr)
  have f11 : after s2 W1 (Proc.devRef .tc main_v11) = val_main_v11 (F := F) (V (Proc.devRef .tc main_arg3)) := (s2_keep W1 main_v11 (by decide)).trans e11
  have e25 : after s2 W1 (Proc.devRef .tc main_v25) = val_main_v25 (F := F) (V (Proc.devRef .tc main_arg0)) (V (Proc.devRef .tc main_arg1)) (V (Proc.devRef .tc main_arg2)) (V (Proc.devRef .tc main_arg3)) :=
    s2_v25 W1 _ _ _ _ (a1 main_arg0 (by decide)) (a1 main_arg1 (by decide)) (a1 main_arg2 (by decide)) (a1 main_arg3 (by decide)) e11
  clear a1 e11
  generalize after s2 W1 = W2 at a2 f11 e25 ⊢
  -- after stretch 3
  have a3 : ∀ r ∈ argRefs, after s3 W2 (Proc.devRef .tc r) = V (Proc.devRef .tc r) :=
    fun r hr => (s3_keep W2 r (n r hr).2.2.1).trans (a2 r hr)
  have g11 : after s3 W2 (Proc.devRef .tc main_v11) = val_main_v11 (F := F) (V (Proc.devRef .tc main_arg3)) := (s3_keep W2 main_v11 (by decide)).trans f11
  have e32 : after s3 W2 (Proc.devRef .tc main_v32) = val_main_v32 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
    s3_v32 W2 _ _ _ _ _ _ (a2 main_arg0 (by decide)) (a2 main_arg4 (by decide)) (a2 main_arg5 (by decide)) e25
  clear a2 f11 e25
  generalize after s3 W2 = W3 at a3 g11 e32 ⊢
  -- after stretch 4
  have a4 : ∀ r ∈ argRefs, after s4 W3 (Proc.devRef .tc r) = V (Proc.devRef .tc r) :=
    fun r hr => (s4_keep W3 r (n r hr).2.2.2.1).trans (a3 r hr)
  have h11 : after s4 W3 (Proc.devRef .tc main_v11) = val_main_v11 (F := F) (V (Proc.devRef .tc main_arg3)) := (s4_keep W3 main_v11 (by decide)).trans g11
  have f32 : after s4 W3 (Proc.devRef .tc main_v32) = val_main_v32 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := (s4_keep W3 main_v32 (by decide)).trans e32
  have e46 : after s4 W3 (Proc.devRef .tc main_v46) = val_main_v46 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
    s4_v46 W3 _ _ _ _ _ _ (a3 main_arg1 (by decide)) (a3 main_arg2 (by decide)) (a3 main_arg3 (by decide)) g11 e32
  clear a3 g11 e32
  generalize after s4 W3 = W4 at a4 h11 f32 e46 ⊢
  -- after stretch 5
  have a5 : ∀ r ∈ argRefs, after s5 W4 (Proc.devRef .tc r) = V (Proc.devRef .tc r) :=
    fun r hr => (s5_keep W4 r (n r hr).2.2.2.2.1).trans (a4 r hr)
  have i11 : after s5 W4 (Proc.devRef .tc main_v11) = val_main_v11 (F := F) (V (Proc.devRef .tc main_arg3)) := (s5_keep W4 main_v11 (by decide)).trans h11
  have e53 : after s5 W4 (Proc.devRef .tc main_v53) = val_main_v53 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
    s5_v53 W4 _ _ _ _ _ _ _ _ (a4 main_arg6 (by decide)) (a4 main_arg7 (by decide)) f32 e46
  clear a4 h11 f32 e46
  generalize after s5 W4 = W5 at a5 i11 e53 ⊢
  -- after stretch 6
  have a6 : ∀ r ∈ argRefs, after s6 W5 (Proc.devRef .tc r) = V (Proc.devRef .tc r) :=
    fun r hr => (s6_keep W5 r (n r hr).2.2.2.2.2.1).trans (a5 r hr)
  have f53 : after s6 W5 (Proc.devRef .tc main_v53) = val_main_v53 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := (s6_keep W5 main_v53 (by decide)).trans e53
  have e67 : after s6 W5 (Proc.devRef .tc main_v67) = val_main_v67 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
    s6_v67 W5 _ _ _ _ _ _ _ _ (a5 main_arg1 (by decide)) (a5 main_arg2 (by decide)) (a5 main_arg3 (by decide)) i11 e53
  clear a5 i11 e53
  generalize after s6 W5 = W6 at a6 f53 e67 ⊢
  -- stretch 7 ends at the result
  exact s7_v74 W6 _ _ _ _ _ _ _ _ _ _ (a6 main_arg8 (by decide)) (a6 main_arg9 (by decide)) f53 e67

/-- No operation of @main leaves a result undetermined. -/
theorem ops_fresh : (ops : List (HloOp τ sig (Elt F))).Forall fun op => op.fresh = ∅ := by
  simp only [List.Forall]; repeat' constructor

/-- The run, with the result at the last stage. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v74) = val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run (defs (F := Ideal)) _ _).mono (fun _ h c => ?_)
    (run_seq scopedRefs_eq scopedSems_eq defs main (fun _ => ops) main_eq (fun _ => ops_sub) m ρ
      (fun _ => List.forall_iff_forall_mem.mp ops_fresh))
  -- the result, then the ten arguments
  exact ⟨(h c main_v74).trans (ops_v74 (launchContents m c)),
    (h c main_arg0).trans (ops_arg (launchContents m c) main_arg0 (by decide)),
    (h c main_arg1).trans (ops_arg (launchContents m c) main_arg1 (by decide)),
    (h c main_arg2).trans (ops_arg (launchContents m c) main_arg2 (by decide)),
    (h c main_arg3).trans (ops_arg (launchContents m c) main_arg3 (by decide)),
    (h c main_arg4).trans (ops_arg (launchContents m c) main_arg4 (by decide)),
    (h c main_arg5).trans (ops_arg (launchContents m c) main_arg5 (by decide)),
    (h c main_arg6).trans (ops_arg (launchContents m c) main_arg6 (by decide)),
    (h c main_arg7).trans (ops_arg (launchContents m c) main_arg7 (by decide)),
    (h c main_arg8).trans (ops_arg (launchContents m c) main_arg8 (by decide)),
    (h c main_arg9).trans (ops_arg (launchContents m c) main_arg9 (by decide))⟩

end Cert.ReferenceIdeal.RunH

end
-- ==== Proof.RefLayers.lean ====
/-
  Each dense layer of the reference, read at an index: the product of the concatenation [aggregation | features]
  (50000 × 256) with the transposed weights, plus the bias broadcast over the nodes, clamped below at zero, is
  `Cert.Spec.layer` of the aggregation, the features, the weights and the bias. The one law used is the splitting of
  the sum over the 256 joined columns into its two halves (`Cert.Spec.sum_lo_hi`): the first 128 columns of the
  concatenation are the aggregation's, the last 128 the features'.
-/
import proofs.«169384_j87686052315764_1_alg».proof.Proof.RefReadP
import proofs.«169384_j87686052315764_1_alg».proof.Proof.Spec

noncomputable section

namespace Cert.RefLayers

open Idealize.ShloMosaic Idealize.ShloMosaic.ValueIdx Cert.ReferenceIdeal Cert.ReferenceIdeal.Gen Cert.ReferenceIdeal.ReadP

/-- Column `k < 128` of the concatenation [a | h] along the columns is column `k` of `a`: the index (p, k) of the
    first piece has the same coordinates as the index (p, k) of the whole. -/
theorem cat_lo {α : Type} (a h : S50000x128.Idx → α) (p : Fin 50000) (k : Fin 128) :
    concatenate S50000x256 1 [⟨S50000x128, a⟩, ⟨S50000x128, h⟩] concatenates_S50000x128_S50000x128_S50000x256_d1
      (ix2 p (Cert.Spec.lo k)) = a (ix2 p k) :=
  concatenate_pair_apply_left (1 : Fin S50000x256.rank) a h concatenates_S50000x128_S50000x128_S50000x256_d1
    (ix2 p (Cert.Spec.lo k)) rfl (ix2 p k) (fun b => match b with
      | ⟨0, _⟩ => rfl
      | ⟨1, _⟩ => rfl)

/-- Column `128 + k` of the concatenation [a | h] is column `k` of `h`: the second piece begins after the first piece's
    128 columns, and the row coordinate is unchanged. -/
theorem cat_hi {α : Type} (a h : S50000x128.Idx → α) (p : Fin 50000) (k : Fin 128) :
    concatenate S50000x256 1 [⟨S50000x128, a⟩, ⟨S50000x128, h⟩] concatenates_S50000x128_S50000x128_S50000x256_d1
      (ix2 p (Cert.Spec.hi k)) = h (ix2 p k) :=
  concatenate_pair_apply_right (1 : Fin S50000x256.rank) a h concatenates_S50000x128_S50000x128_S50000x256_d1
    (ix2 p (Cert.Spec.hi k)) rfl rfl (ix2 p k) (fun b => match b with
      | ⟨0, _⟩ => fun _ => rfl
      | ⟨1, _⟩ => fun hb => absurd rfl hb)
    (by show k.val + 128 = 128 + k.val; omega)

/-- The algebra of one layer. Let `cat` be an array of 256 columns whose first 128 columns are `a`'s and whose last 128
    are `h`'s, and `Wt` the transpose of `W`. Then Σ_{k<256} cat[p,k]·Wt[k,q] splits into the sum over the first 128
    columns, which is Σ_k a[p,k]·W[q,k], plus the sum over the last 128, which is Σ_k h[p,k]·W[q,128+k]; adding the bias
    and clamping at zero gives the layer's value at (p, q). -/
theorem core {N : Nat} (a h : (⟨2, ![50000, 128]⟩ : Shape).Idx → EReal) (W : (⟨2, ![N, 256]⟩ : Shape).Idx → EReal)
    (b : (⟨1, ![N]⟩ : Shape).Idx → EReal) (cat : (⟨2, ![50000, 256]⟩ : Shape).Idx → EReal)
    (Wt : (⟨2, ![256, N]⟩ : Shape).Idx → EReal)
    (hlo : ∀ (p : Fin 50000) (k : Fin 128), cat (ix2 p (Cert.Spec.lo k)) = a (ix2 p k))
    (hhi : ∀ (p : Fin 50000) (k : Fin 128), cat (ix2 p (Cert.Spec.hi k)) = h (ix2 p k))
    (hWt : ∀ (k : Fin 256) (q : Fin N), Wt (ix2 k q) = W (ix2 q k)) (p : Fin 50000) (q : Fin N) :
    max ((∑ k : Fin 256, cat (ix2 p k) * Wt (ix2 k q)) + b (ix1 q)) (Ideal.ofBits .f32 0x00000000#32)
      = Cert.Spec.layerAt a h W b p q := by
  unfold Cert.Spec.layerAt
  rw [Cert.Spec.sum_lo_hi]
  congr 3
  · exact Finset.sum_congr rfl fun k _ => by rw [hlo, hWt]
  · exact Finset.sum_congr rfl fun k _ => by rw [hhi, hWt]

/-- Layer 1: features `x0`, weights `x4`, bias `x5`. -/
theorem layer1 (x0 : (⟨S50000x128, .f32⟩ : BufTy).Contents (Elt Ideal)) (x1 : (⟨S1600000x1, .f32⟩ : BufTy).Contents (Elt Ideal)) (x2 x3 : (⟨S1600000, .i32⟩ : BufTy).Contents (Elt Ideal)) (x4 : (⟨S128x256, .f32⟩ : BufTy).Contents (Elt Ideal)) (x5 : (⟨S128, .f32⟩ : BufTy).Contents (Elt Ideal)) :
    val_main_v32 (F := Ideal) x0 x1 x2 x3 x4 x5
      = Cert.Spec.layer (N := 128) (val_main_v25 (F := Ideal) x0 x1 x2 x3) x0 x4 x5 := by
  funext i
  obtain ⟨p, q, rfl⟩ : ∃ (p : Fin 50000) (q : Fin 128), i = ix2 p q := ⟨i 0, i 1, eq_ix2 i⟩
  rw [Cert.Spec.layer_ix2, val_main_v32_apply, val_main_v31_apply, val_main_v28_apply, val_main_v30_apply,
    val_main_v29_apply, val_main_call1_v0_apply, val_main_call1_cst_apply]
  unfold val_main_v26
  generalize val_main_v25 (F := Ideal) x0 x1 x2 x3 = a
  -- the generated index maps of the product and of the bias' two broadcasts, at the index (p, q), by coordinates
  have el : ∀ k : Fin 256, lidx_main_v28 (ix2 p q) k = ix2 p k := fun k =>
    funext fun d => Fin.ext (by match d with | ⟨0, _⟩ => rfl | ⟨1, _⟩ => rfl)
  have er : ∀ k : Fin 256, ridx_main_v28 (ix2 p q) k = ix2 k q := fun k =>
    funext fun d => Fin.ext (by match d with | ⟨0, _⟩ => rfl | ⟨1, _⟩ => rfl)
  have eb : idx_main_v29 (idx_main_v30 (ix2 p q)) = ix1 q :=
    funext fun d => Fin.ext (by match d with | ⟨0, _⟩ => rfl)
  simp only [el, er, eb]
  -- the transposed weights at (k, q) are the weights at (q, k)
  exact core a x0 x4 x5 _ (val_main_v27 (F := Ideal) x4) (cat_lo a x0) (cat_hi a x0)
    (fun k q => (val_main_v27_apply x4 (ix2 k q)).trans (congrArg x4 (funext fun d => Fin.ext (by match d with | ⟨0, _⟩ => rfl | ⟨1, _⟩ => rfl)))) p q

/-- Layer 2: features the first layer's output, weights `x6`, bias `x7`. -/
theorem layer2 (x0 : (⟨S50000x128, .f32⟩ : BufTy).Contents (Elt Ideal)) (x1 : (⟨S1600000x1, .f32⟩ : BufTy).Contents (Elt Ideal)) (x2 x3 : (⟨S1600000, .i32⟩ : BufTy).Contents (Elt Ideal)) (x4 : (⟨S128x256, .f32⟩ : BufTy).Contents (Elt Ideal)) (x5 : (⟨S128, .f32⟩ : BufTy).Contents (Elt Ideal)) (x6 : (⟨S128x256, .f32⟩ : BufTy).Contents (Elt Ideal)) (x7 : (⟨S128, .f32⟩ : BufTy).Contents (Elt Ideal)) :
    val_main_v53 (F := Ideal) x0 x1 x2 x3 x4 x5 x6 x7
      = Cert.Spec.layer (N := 128) (val_main_v46 (F := Ideal) x0 x1 x2 x3 x4 x5) (val_main_v32 (F := Ideal) x0 x1 x2 x3 x4 x5) x6 x7 := by
  funext i
  obtain ⟨p, q, rfl⟩ : ∃ (p : Fin 50000) (q : Fin 128), i = ix2 p q := ⟨i 0, i 1, eq_ix2 i⟩
  rw [Cert.Spec.layer_ix2, val_main_v53_apply, val_main_v52_apply, val_main_v49_apply, val_main_v51_apply,
    val_main_v50_apply, val_main_call2_v0_apply, val_main_call2_cst_apply]
  unfold val_main_v47
  generalize val_main_v46 (F := Ideal) x0 x1 x2 x3 x4 x5 = a
  generalize val_main_v32 (F := Ideal) x0 x1 x2 x3 x4 x5 = h
  -- the generated index maps of the product and of the bias' two broadcasts, at the index (p, q), by coordinates
  have el : ∀ k : Fin 256, lidx_main_v49 (ix2 p q) k = ix2 p k := fun k =>
    funext fun d => Fin.ext (by match d with | ⟨0, _⟩ => rfl | ⟨1, _⟩ => rfl)
  have er : ∀ k : Fin 256, ridx_main_v49 (ix2 p q) k = ix2 k q := fun k =>
    funext fun d => Fin.ext (by match d with | ⟨0, _⟩ => rfl | ⟨1, _⟩ => rfl)
  have eb : idx_main_v50 (idx_main_v51 (ix2 p q)) = ix1 q :=
    funext fun d => Fin.ext (by match d with | ⟨0, _⟩ => rfl)
  simp only [el, er, eb]
  -- the transposed weights at (k, q) are the weights at (q, k)
  exact core a h x6 x7 _ (val_main_v48 (F := Ideal) x6) (cat_lo a h) (cat_hi a h)
    (fun k q => (val_main_v48_apply x6 (ix2 k q)).trans (congrArg x6 (funext fun d => Fin.ext (by match d with | ⟨0, _⟩ => rfl | ⟨1, _⟩ => rfl)))) p q

/-- Layer 3: features the second layer's output, weights `x8` (64 × 256), bias `x9`. -/
theorem layer3 (x0 : (⟨S50000x128, .f32⟩ : BufTy).Contents (Elt Ideal)) (x1 : (⟨S1600000x1, .f32⟩ : BufTy).Contents (Elt Ideal)) (x2 x3 : (⟨S1600000, .i32⟩ : BufTy).Contents (Elt Ideal)) (x4 : (⟨S128x256, .f32⟩ : BufTy).Contents (Elt Ideal)) (x5 : (⟨S128, .f32⟩ : BufTy).Contents (Elt Ideal)) (x6 : (⟨S128x256, .f32⟩ : BufTy).Contents (Elt Ideal)) (x7 : (⟨S128, .f32⟩ : BufTy).Contents (Elt Ideal)) (x8 : (⟨S64x256, .f32⟩ : BufTy).Contents (Elt Ideal)) (x9 : (⟨S64, .f32⟩ : BufTy).Contents (Elt Ideal)) :
    val_main_v74 (F := Ideal) x0 x1 x2 x3 x4 x5 x6 x7 x8 x9
      = Cert.Spec.layer (N := 64) (val_main_v67 (F := Ideal) x0 x1 x2 x3 x4 x5 x6 x7) (val_main_v53 (F := Ideal) x0 x1 x2 x3 x4 x5 x6 x7) x8 x9 := by
  funext i
  obtain ⟨p, q, rfl⟩ : ∃ (p : Fin 50000) (q : Fin 64), i = ix2 p q := ⟨i 0, i 1, eq_ix2 i⟩
  rw [Cert.Spec.layer_ix2, val_main_v74_apply, val_main_v73_apply, val_main_v70_apply, val_main_v72_apply,
    val_main_v71_apply, val_main_call3_v0_apply, val_main_call3_cst_apply]
  unfold val_main_v68
  generalize val_main_v67 (F := Ideal) x0 x1 x2 x3 x4 x5 x6 x7 = a
  generalize val_main_v53 (F := Ideal) x0 x1 x2 x3 x4 x5 x6 x7 = h
  -- the generated index maps of the product and of the bias' two broadcasts, at the index (p, q), by coordinates
  have el : ∀ k : Fin 256, lidx_main_v70 (ix2 p q) k = ix2 p k := fun k =>
    funext fun d => Fin.ext (by match d with | ⟨0, _⟩ => rfl | ⟨1, _⟩ => rfl)
  have er : ∀ k : Fin 256, ridx_main_v70 (ix2 p q) k = ix2 k q := fun k =>
    funext fun d => Fin.ext (by match d with | ⟨0, _⟩ => rfl | ⟨1, _⟩ => rfl)
  have eb : idx_main_v71 (idx_main_v72 (ix2 p q)) = ix1 q :=
    funext fun d => Fin.ext (by match d with | ⟨0, _⟩ => rfl)
  simp only [el, er, eb]
  -- the transposed weights at (k, q) are the weights at (q, k)
  exact core a h x8 x9 _ (val_main_v69 (F := Ideal) x8) (cat_lo a h) (cat_hi a h)
    (fun k q => (val_main_v69_apply x8 (ix2 k q)).trans (congrArg x8 (funext fun d => Fin.ext (by match d with | ⟨0, _⟩ => rfl | ⟨1, _⟩ => rfl)))) p q

end Cert.RefLayers

end
-- ==== Proof.lean ====
/-
  A three-layer graph network on 50000 nodes and 1.6 million weighted edges: each layer aggregates every node's
  in-neighbours' features (gather by source, scale by the edge weight, add into the destination, divide by the
  in-degree) and applies a dense layer to the aggregation and the node's own features,
      out[n, j] = max (Σ_k agg[n,k]·W[j,k] + Σ_k h[n,k]·W[j,128+k] + b[j], 0).
  The kernel's program and the reference do the aggregation with the same host operations; they differ in the dense
  layer only. The reference multiplies the concatenation [agg | h] (256 columns) by the transposed weights; the
  kernel's pallas_call multiplies agg and h separately by the two transposed halves of the weights, ten blocks of 5000
  nodes at a time, and adds the two products. On the extended reals a sum over the 256 joined columns is the sum over
  the first 128 plus the sum over the last 128, by commutativity and associativity of addition alone, so both programs
  end with the same array: `Cert.Chain.net` of the arguments. No finiteness of the inputs is used.

  The three frame claims: the kernel's two programs by their generated frame certificates, the reference by its run
  (read back stage by stage in Proof/RefRun.lean).
  The idealization rewrote nothing, so `preserves` has nothing to state.
-/
import proofs.«169384_j87686052315764_1_alg».proof.Defs
import proofs.«169384_j87686052315764_1_alg».proof.Proof.Gen.Kernel.Frame
import proofs.«169384_j87686052315764_1_alg».proof.Proof.Gen.KernelIdeal.Frame
import proofs.«169384_j87686052315764_1_alg».proof.Proof.Gen.ReferenceIdeal
import proofs.«169384_j87686052315764_1_alg».proof.Proof.Gen.Pre_finite_inputs
import proofs.«169384_j87686052315764_1_alg».proof.Proof.KRun
import proofs.«169384_j87686052315764_1_alg».proof.Proof.KValue
import proofs.«169384_j87686052315764_1_alg».proof.Proof.RefRun
import proofs.«169384_j87686052315764_1_alg».proof.Proof.RefLayers
import proofs.«169384_j87686052315764_1_alg».proof.Proof.Chain
import Idealize.ShloMosaic.Adequacy
import Idealize.ShloMosaic.Init

noncomputable section

namespace Cert.Proof

open Idealize.ShloMosaic Idealize.ShloMosaic.TcCoe Idealize.SL.Sem

section Reference

open Cert.ReferenceIdeal Cert.ReferenceIdeal.ReadP

/-- The reference's result, stage by stage, is the network: each of its three dense layers is `Cert.Spec.layer` of the
    aggregation before it, and each aggregation is `Cert.Chain.agg` of the features before it. -/
theorem ref_net (x0 : (⟨S50000x128, .f32⟩ : BufTy).Contents (Elt Ideal)) (x1 : (⟨S1600000x1, .f32⟩ : BufTy).Contents (Elt Ideal)) (x2 x3 : (⟨S1600000, .i32⟩ : BufTy).Contents (Elt Ideal)) (x4 : (⟨S128x256, .f32⟩ : BufTy).Contents (Elt Ideal)) (x5 : (⟨S128, .f32⟩ : BufTy).Contents (Elt Ideal)) (x6 : (⟨S128x256, .f32⟩ : BufTy).Contents (Elt Ideal)) (x7 : (⟨S128, .f32⟩ : BufTy).Contents (Elt Ideal)) (x8 : (⟨S64x256, .f32⟩ : BufTy).Contents (Elt Ideal)) (x9 : (⟨S64, .f32⟩ : BufTy).Contents (Elt Ideal)) :
    val_main_v74 (F := Ideal) x0 x1 x2 x3 x4 x5 x6 x7 x8 x9 = Cert.Chain.net x0 x1 x2 x3 x4 x5 x6 x7 x8 x9 := by
  rw [Cert.RefLayers.layer3, Cert.Chain.agg3, Cert.RefLayers.layer2, Cert.Chain.agg2, Cert.RefLayers.layer1, Cert.Chain.agg1]
  rfl

end Reference

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunH.run m ρ)

/-- Both idealized programs end with the network of the arguments in their result array. -/
theorem algebraic : Cert.algebraic_KernelIdeal_ReferenceIdeal := by
  intro m ρ m' ρ' _ hagree
  refine ⟨fun c => Cert.Chain.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.KValue.W8_v71 m ρ c), (h c).2⟩)
      (Cert.KernelIdeal.KRun.run_named (F := Ideal) m ρ)
  · refine (θ_run Cert.ReferenceIdeal.defs _ _).mono (fun _ h c => ⟨(h c).1.trans ?_, (h c).2⟩)
      (Cert.ReferenceIdeal.RunH.run m' ρ')
    rw [ref_net]
    obtain ⟨e0, e1, e2, e3, e4, e5, e6, e7, e8, e9⟩ := hagree c
    rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
